-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x784x864 : Shape := ⟨3, ![4, 784, 864]⟩
abbrev S1x864 : Shape := ⟨2, ![1, 864]⟩
abbrev S4x864x192 : Shape := ⟨3, ![4, 864, 192]⟩
abbrev S1x192 : Shape := ⟨2, ![1, 192]⟩
abbrev S192x120 : Shape := ⟨2, ![192, 120]⟩
abbrev S1x120 : Shape := ⟨2, ![1, 120]⟩
abbrev S120x60 : Shape := ⟨2, ![120, 60]⟩
abbrev S1x60 : Shape := ⟨2, ![1, 60]⟩
abbrev S60x128 : Shape := ⟨2, ![60, 128]⟩
abbrev S1x128 : Shape := ⟨2, ![1, 128]⟩
abbrev S8192x1x28x28 : Shape := ⟨4, ![8192, 1, 28, 28]⟩
abbrev S_ : Shape := ⟨0, ![]⟩

class Facts : Prop where
  bitsLt_bf16_f32 : FTy.bits .bf16 < FTy.bits .f32
  bcast_S_S4x784x864 : S_.BroadcastsInDim S4x784x864 (![] : Fin 0 → Fin S4x784x864.rank)
  reducesTo_S4x784x864_S_d0_1_2 : S4x784x864.ReducesTo [0, 1, 2] S_
  h_S_ : 0 < S_.numel
  bcast_S_S1x864 : S_.BroadcastsInDim S1x864 (![] : Fin 0 → Fin S1x864.rank)
  reducesTo_S1x864_S_d0_1 : S1x864.ReducesTo [0, 1] S_
  bcast_S_S4x864x192 : S_.BroadcastsInDim S4x864x192 (![] : Fin 0 → Fin S4x864x192.rank)
  reducesTo_S4x864x192_S_d0_1_2 : S4x864x192.ReducesTo [0, 1, 2] S_
  bcast_S_S1x192 : S_.BroadcastsInDim S1x192 (![] : Fin 0 → Fin S1x192.rank)
  reducesTo_S1x192_S_d0_1 : S1x192.ReducesTo [0, 1] S_
  bcast_S_S192x120 : S_.BroadcastsInDim S192x120 (![] : Fin 0 → Fin S192x120.rank)
  reducesTo_S192x120_S_d0_1 : S192x120.ReducesTo [0, 1] S_
  bcast_S_S1x120 : S_.BroadcastsInDim S1x120 (![] : Fin 0 → Fin S1x120.rank)
  reducesTo_S1x120_S_d0_1 : S1x120.ReducesTo [0, 1] S_
  bcast_S_S120x60 : S_.BroadcastsInDim S120x60 (![] : Fin 0 → Fin S120x60.rank)
  reducesTo_S120x60_S_d0_1 : S120x60.ReducesTo [0, 1] S_
  bcast_S_S1x60 : S_.BroadcastsInDim S1x60 (![] : Fin 0 → Fin S1x60.rank)
  reducesTo_S1x60_S_d0_1 : S1x60.ReducesTo [0, 1] S_
  bcast_S_S60x128 : S_.BroadcastsInDim S60x128 (![] : Fin 0 → Fin S60x128.rank)
  reducesTo_S60x128_S_d0_1 : S60x128.ReducesTo [0, 1] S_
  bcast_S_S1x128 : S_.BroadcastsInDim S1x128 (![] : Fin 0 → Fin S1x128.rank)
  reducesTo_S1x128_S_d0_1 : S1x128.ReducesTo [0, 1] S_
  bcast_S_S8192x1x28x28 : S_.BroadcastsInDim S8192x1x28x28 (![] : Fin 0 → Fin S8192x1x28x28.rank)
  reducesTo_S8192x1x28x28_S_d0_1_2_3 : S8192x1x28x28.ReducesTo [0, 1, 2, 3] S_

variable [Facts]

def fn_part3 {F : FTy → Type} [FloatOps F] (main_arg10 : FVec F S8192x1x28x28 .f32) (main_v48 : IVec S_ 1) (main_v51 : IVec S1x128 1) (main_c_17 : IVec S_ 1) : IVec S_ 1 :=
  let main_v52 : IVec S_ 1 := (fun x v => Host.reduce IntOp.andi x v reducesTo_S1x128_S_d0_1 h_S_) main_v51 main_c_17
  let main_v53 : IVec S_ 1 := andi main_v48 main_v52
  let main_v54 : FVec F S8192x1x28x28 .f32 := Host.absf main_arg10
  let main_cst_18 : FVec F S_ .f32 := constant S_ .f32 0x7F800000#32
  let main_v55 : FVec F S8192x1x28x28 .f32 := broadcastInDim S8192x1x28x28 ![] bcast_S_S8192x1x28x28 main_cst_18
  let main_v56 : IVec S8192x1x28x28 1 := cmpf .olt main_v54 main_v55
  let main_c_19 : IVec S_ 1 := constantI S_ 1 1#1
  let main_v57 : IVec S_ 1 := (fun x v => Host.reduce IntOp.andi x v reducesTo_S8192x1x28x28_S_d0_1_2_3 h_S_) main_v56 main_c_19
  let main_v58 : IVec S_ 1 := andi main_v53 main_v57
  main_v58

def fn_part2 {F : FTy → Type} [FloatOps F] (main_arg7 : FVec F S1x60 .f32) (main_arg8 : FVec F S60x128 .bf16) (main_arg9 : FVec F S1x128 .f32) (main_arg10 : FVec F S8192x1x28x28 .f32) (main_v31 : IVec S_ 1) (main_v33 : FVec F S120x60 .f32) (main_v34 : FVec F S120x60 .f32) : IVec S_ 1 :=
  let main_v35 : IVec S120x60 1 := cmpf .olt main_v33 main_v34
  let main_c_11 : IVec S_ 1 := constantI S_ 1 1#1
  let main_v36 : IVec S_ 1 := (fun x v => Host.reduce IntOp.andi x v reducesTo_S120x60_S_d0_1 h_S_) main_v35 main_c_11
  let main_v37 : IVec S_ 1 := andi main_v31 main_v36
  let main_v38 : FVec F S1x60 .f32 := Host.absf main_arg7
  let main_cst_12 : FVec F S_ .f32 := constant S_ .f32 0x7F800000#32
  let main_v39 : FVec F S1x60 .f32 := broadcastInDim S1x60 ![] bcast_S_S1x60 main_cst_12
  let main_v40 : IVec S1x60 1 := cmpf .olt main_v38 main_v39
  let main_c_13 : IVec S_ 1 := constantI S_ 1 1#1
  let main_v41 : IVec S_ 1 := (fun x v => Host.reduce IntOp.andi x v reducesTo_S1x60_S_d0_1 h_S_) main_v40 main_c_13
  let main_v42 : IVec S_ 1 := andi main_v37 main_v41
  let main_v43 : FVec F S60x128 .f32 := (extf .f32 · bitsLt_bf16_f32) main_arg8
  let main_v44 : FVec F S60x128 .f32 := Host.absf main_v43
  let main_cst_14 : FVec F S_ .f32 := constant S_ .f32 0x7F800000#32
  let main_v45 : FVec F S60x128 .f32 := broadcastInDim S60x128 ![] bcast_S_S60x128 main_cst_14
  let main_v46 : IVec S60x128 1 := cmpf .olt main_v44 main_v45
  let main_c_15 : IVec S_ 1 := constantI S_ 1 1#1
  let main_v47 : IVec S_ 1 := (fun x v => Host.reduce IntOp.andi x v reducesTo_S60x128_S_d0_1 h_S_) main_v46 main_c_15
  let main_v48 : IVec S_ 1 := andi main_v42 main_v47
  let main_v49 : FVec F S1x128 .f32 := Host.absf main_arg9
  let main_cst_16 : FVec F S_ .f32 := constant S_ .f32 0x7F800000#32
  let main_v50 : FVec F S1x128 .f32 := broadcastInDim S1x128 ![] bcast_S_S1x128 main_cst_16
  let main_v51 : IVec S1x128 1 := cmpf .olt main_v49 main_v50
  let main_c_17 : IVec S_ 1 := constantI S_ 1 1#1
  fn_part3 (F := F) main_arg10 main_v48 main_v51 main_c_17

def fn_part1 {F : FTy → Type} [FloatOps F] (main_arg4 : FVec F S192x120 .bf16) (main_arg5 : FVec F S1x120 .f32) (main_arg6 : FVec F S120x60 .bf16) (main_arg7 : FVec F S1x60 .f32) (main_arg8 : FVec F S60x128 .bf16) (main_arg9 : FVec F S1x128 .f32) (main_arg10 : FVec F S8192x1x28x28 .f32) (main_v15 : IVec S_ 1) (main_v16 : FVec F S1x192 .f32) (main_cst_4 : FVec F S_ .f32) : IVec S_ 1 :=
  let main_v17 : FVec F S1x192 .f32 := broadcastInDim S1x192 ![] bcast_S_S1x192 main_cst_4
  let main_v18 : IVec S1x192 1 := cmpf .olt main_v16 main_v17
  let main_c_5 : IVec S_ 1 := constantI S_ 1 1#1
  let main_v19 : IVec S_ 1 := (fun x v => Host.reduce IntOp.andi x v reducesTo_S1x192_S_d0_1 h_S_) main_v18 main_c_5
  let main_v20 : IVec S_ 1 := andi main_v15 main_v19
  let main_v21 : FVec F S192x120 .f32 := (extf .f32 · bitsLt_bf16_f32) main_arg4
  let main_v22 : FVec F S192x120 .f32 := Host.absf main_v21
  let main_cst_6 : FVec F S_ .f32 := constant S_ .f32 0x7F800000#32
  let main_v23 : FVec F S192x120 .f32 := broadcastInDim S192x120 ![] bcast_S_S192x120 main_cst_6
  let main_v24 : IVec S192x120 1 := cmpf .olt main_v22 main_v23
  let main_c_7 : IVec S_ 1 := constantI S_ 1 1#1
  let main_v25 : IVec S_ 1 := (fun x v => Host.reduce IntOp.andi x v reducesTo_S192x120_S_d0_1 h_S_) main_v24 main_c_7
  let main_v26 : IVec S_ 1 := andi main_v20 main_v25
  let main_v27 : FVec F S1x120 .f32 := Host.absf main_arg5
  let main_cst_8 : FVec F S_ .f32 := constant S_ .f32 0x7F800000#32
  let main_v28 : FVec F S1x120 .f32 := broadcastInDim S1x120 ![] bcast_S_S1x120 main_cst_8
  let main_v29 : IVec S1x120 1 := cmpf .olt main_v27 main_v28
  let main_c_9 : IVec S_ 1 := constantI S_ 1 1#1
  let main_v30 : IVec S_ 1 := (fun x v => Host.reduce IntOp.andi x v reducesTo_S1x120_S_d0_1 h_S_) main_v29 main_c_9
  let main_v31 : IVec S_ 1 := andi main_v26 main_v30
  let main_v32 : FVec F S120x60 .f32 := (extf .f32 · bitsLt_bf16_f32) main_arg6
  let main_v33 : FVec F S120x60 .f32 := Host.absf main_v32
  let main_cst_10 : FVec F S_ .f32 := constant S_ .f32 0x7F800000#32
  let main_v34 : FVec F S120x60 .f32 := broadcastInDim S120x60 ![] bcast_S_S120x60 main_cst_10
  fn_part2 (F := F) main_arg7 main_arg8 main_arg9 main_arg10 main_v31 main_v33 main_v34

def fn {F : FTy → Type} [FloatOps F] (main_arg0 : FVec F S4x784x864 .bf16) (main_arg1 : FVec F S1x864 .f32) (main_arg2 : FVec F S4x864x192 .bf16) (main_arg3 : FVec F S1x192 .f32) (main_arg4 : FVec F S192x120 .bf16) (main_arg5 : FVec F S1x120 .f32) (main_arg6 : FVec F S120x60 .bf16) (main_arg7 : FVec F S1x60 .f32) (main_arg8 : FVec F S60x128 .bf16) (main_arg9 : FVec F S1x128 .f32) (main_arg10 : FVec F S8192x1x28x28 .f32) : IVec S_ 1 :=
  let main_v0 : FVec F S4x784x864 .f32 := (extf .f32 · bitsLt_bf16_f32) main_arg0
  let main_v1 : FVec F S4x784x864 .f32 := Host.absf main_v0
  let main_cst : FVec F S_ .f32 := constant S_ .f32 0x7F800000#32
  let main_v2 : FVec F S4x784x864 .f32 := broadcastInDim S4x784x864 ![] bcast_S_S4x784x864 main_cst
  let main_v3 : IVec S4x784x864 1 := cmpf .olt main_v1 main_v2
  let main_c : IVec S_ 1 := constantI S_ 1 1#1
  let main_v4 : IVec S_ 1 := (fun x v => Host.reduce IntOp.andi x v reducesTo_S4x784x864_S_d0_1_2 h_S_) main_v3 main_c
  let main_v5 : FVec F S1x864 .f32 := Host.absf main_arg1
  let main_cst_0 : FVec F S_ .f32 := constant S_ .f32 0x7F800000#32
  let main_v6 : FVec F S1x864 .f32 := broadcastInDim S1x864 ![] bcast_S_S1x864 main_cst_0
  let main_v7 : IVec S1x864 1 := cmpf .olt main_v5 main_v6
  let main_c_1 : IVec S_ 1 := constantI S_ 1 1#1
  let main_v8 : IVec S_ 1 := (fun x v => Host.reduce IntOp.andi x v reducesTo_S1x864_S_d0_1 h_S_) main_v7 main_c_1
  let main_v9 : IVec S_ 1 := andi main_v4 main_v8
  let main_v10 : FVec F S4x864x192 .f32 := (extf .f32 · bitsLt_bf16_f32) main_arg2
  let main_v11 : FVec F S4x864x192 .f32 := Host.absf main_v10
  let main_cst_2 : FVec F S_ .f32 := constant S_ .f32 0x7F800000#32
  let main_v12 : FVec F S4x864x192 .f32 := broadcastInDim S4x864x192 ![] bcast_S_S4x864x192 main_cst_2
  let main_v13 : IVec S4x864x192 1 := cmpf .olt main_v11 main_v12
  let main_c_3 : IVec S_ 1 := constantI S_ 1 1#1
  let main_v14 : IVec S_ 1 := (fun x v => Host.reduce IntOp.andi x v reducesTo_S4x864x192_S_d0_1_2 h_S_) main_v13 main_c_3
  let main_v15 : IVec S_ 1 := andi main_v9 main_v14
  let main_v16 : FVec F S1x192 .f32 := Host.absf main_arg3
  let main_cst_4 : FVec F S_ .f32 := constant S_ .f32 0x7F800000#32
  fn_part1 (F := F) main_arg4 main_arg5 main_arg6 main_arg7 main_arg8 main_arg9 main_arg10 main_v15 main_v16 main_cst_4
-- ==== Kernel.lean ====
abbrev S4x784x864 : Shape := ⟨3, ![4, 784, 864]⟩
abbrev S1x864 : Shape := ⟨2, ![1, 864]⟩
abbrev S4x864x192 : Shape := ⟨3, ![4, 864, 192]⟩
abbrev S1x192 : Shape := ⟨2, ![1, 192]⟩
abbrev S192x120 : Shape := ⟨2, ![192, 120]⟩
abbrev S1x120 : Shape := ⟨2, ![1, 120]⟩
abbrev S120x60 : Shape := ⟨2, ![120, 60]⟩
abbrev S1x60 : Shape := ⟨2, ![1, 60]⟩
abbrev S60x128 : Shape := ⟨2, ![60, 128]⟩
abbrev S1x128 : Shape := ⟨2, ![1, 128]⟩
abbrev S8192x1x28x28 : Shape := ⟨4, ![8192, 1, 28, 28]⟩
abbrev S8192x784 : Shape := ⟨2, ![8192, 784]⟩
abbrev S8192x128 : Shape := ⟨2, ![8192, 128]⟩
abbrev S512x784 : Shape := ⟨2, ![512, 784]⟩
abbrev S512x128 : Shape := ⟨2, ![512, 128]⟩
abbrev S1x784x864 : Shape := ⟨3, ![1, 784, 864]⟩
abbrev S784x864 : Shape := ⟨2, ![784, 864]⟩
abbrev S512x864 : Shape := ⟨2, ![512, 864]⟩
abbrev S1x864x192 : Shape := ⟨3, ![1, 864, 192]⟩
abbrev S864x192 : Shape := ⟨2, ![864, 192]⟩
abbrev S512x192 : Shape := ⟨2, ![512, 192]⟩
abbrev S512x120 : Shape := ⟨2, ![512, 120]⟩
abbrev S512x60 : Shape := ⟨2, ![512, 60]⟩
abbrev S8192x10 : Shape := ⟨2, ![8192, 10]⟩

abbrev nBuf : Space → Nat
  | .hbm => 14
  | .vmem => 14
  | .smem => 0
  | _ => 0

abbrev bufTy : (tb : Table) → Fin (tcTables nBuf tb) → BufTy
  | .hbm, ⟨0, _⟩ => ⟨S4x784x864, .bf16⟩
  | .hbm, ⟨1, _⟩ => ⟨S1x864, .f32⟩
  | .hbm, ⟨2, _⟩ => ⟨S4x864x192, .bf16⟩
  | .hbm, ⟨3, _⟩ => ⟨S1x192, .f32⟩
  | .hbm, ⟨4, _⟩ => ⟨S192x120, .bf16⟩
  | .hbm, ⟨5, _⟩ => ⟨S1x120, .f32⟩
  | .hbm, ⟨6, _⟩ => ⟨S120x60, .bf16⟩
  | .hbm, ⟨7, _⟩ => ⟨S1x60, .f32⟩
  | .hbm, ⟨8, _⟩ => ⟨S60x128, .bf16⟩
  | .hbm, ⟨9, _⟩ => ⟨S1x128, .f32⟩
  | .hbm, ⟨10, _⟩ => ⟨S8192x1x28x28, .f32⟩
  | .hbm, ⟨11, _⟩ => ⟨S8192x784, .f32⟩
  | .hbm, ⟨12, _⟩ => ⟨S8192x128, .f32⟩
  | .hbm, ⟨13, _⟩ => ⟨S8192x10, .f32⟩
  | .local _ .vmem, ⟨0, _⟩ => ⟨S512x784, .f32⟩
  | .local _ .vmem, ⟨1, _⟩ => ⟨S512x784, .f32⟩
  | .local _ .vmem, ⟨2, _⟩ => ⟨S4x784x864, .bf16⟩
  | .local _ .vmem, ⟨3, _⟩ => ⟨S1x864, .f32⟩
  | .local _ .vmem, ⟨4, _⟩ => ⟨S4x864x192, .bf16⟩
  | .local _ .vmem, ⟨5, _⟩ => ⟨S1x192, .f32⟩
  | .local _ .vmem, ⟨6, _⟩ => ⟨S192x120, .bf16⟩
  | .local _ .vmem, ⟨7, _⟩ => ⟨S1x120, .f32⟩
  | .local _ .vmem, ⟨8, _⟩ => ⟨S120x60, .bf16⟩
  | .local _ .vmem, ⟨9, _⟩ => ⟨S1x60, .f32⟩
  | .local _ .vmem, ⟨10, _⟩ => ⟨S60x128, .bf16⟩
  | .local _ .vmem, ⟨11, _⟩ => ⟨S1x128, .f32⟩
  | .local _ .vmem, ⟨12, _⟩ => ⟨S512x128, .f32⟩
  | .local _ .vmem, ⟨13, _⟩ => ⟨S512x128, .f32⟩
  | _, _ => ⟨S4x784x864, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x784x864 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x864 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x864x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S120x60 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x60 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S60x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S8192x1x28x28_S8192x784 : S8192x1x28x28.ShapeCasts S8192x784
  inb_S512x784_S512x784_0_0 : ∀ a, (![0, 0] : Fin 2 → Nat) a + S512x784.size a ≤ S512x784.size a
  h_S512x784 : 0 < S512x784.numel
  shapeCasts_S512x784_S512x784 : S512x784.ShapeCasts S512x784
  bitsLt_bf16_f32 : FTy.bits .bf16 < FTy.bits .f32
  inb_S4x784x864_S1x784x864_0_0_0 : ∀ a, (![0, 0, 0] : Fin 3 → Nat) a + S1x784x864.size a ≤ S4x784x864.size a
  h_S1x784x864 : 0 < S1x784x864.numel
  shapeCasts_S1x784x864_S784x864 : S1x784x864.ShapeCasts S784x864
  inb_S4x784x864_S1x784x864_1_0_0 : ∀ a, (![1, 0, 0] : Fin 3 → Nat) a + S1x784x864.size a ≤ S4x784x864.size a
  inb_S4x784x864_S1x784x864_2_0_0 : ∀ a, (![2, 0, 0] : Fin 3 → Nat) a + S1x784x864.size a ≤ S4x784x864.size a
  inb_S4x784x864_S1x784x864_3_0_0 : ∀ a, (![3, 0, 0] : Fin 3 → Nat) a + S1x784x864.size a ≤ S4x784x864.size a
  inb_S1x864_S1x864_0_0 : ∀ a, (![0, 0] : Fin 2 → Nat) a + S1x864.size a ≤ S1x864.size a
  h_S1x864 : 0 < S1x864.numel
  broadcasts_S1x864_S512x864 : S1x864.Broadcasts S512x864
  inb_S4x864x192_S1x864x192_0_0_0 : ∀ a, (![0, 0, 0] : Fin 3 → Nat) a + S1x864x192.size a ≤ S4x864x192.size a
  h_S1x864x192 : 0 < S1x864x192.numel
  shapeCasts_S1x864x192_S864x192 : S1x864x192.ShapeCasts S864x192
  inb_S4x864x192_S1x864x192_1_0_0 : ∀ a, (![1, 0, 0] : Fin 3 → Nat) a + S1x864x192.size a ≤ S4x864x192.size a
  inb_S4x864x192_S1x864x192_2_0_0 : ∀ a, (![2, 0, 0] : Fin 3 → Nat) a + S1x864x192.size a ≤ S4x864x192.size a
  inb_S4x864x192_S1x864x192_3_0_0 : ∀ a, (![3, 0, 0] : Fin 3 → Nat) a + S1x864x192.size a ≤ S4x864x192.size a
  inb_S1x192_S1x192_0_0 : ∀ a, (![0, 0] : Fin 2 → Nat) a + S1x192.size a ≤ S1x192.size a
  h_S1x192 : 0 < S1x192.numel
  broadcasts_S1x192_S512x192 : S1x192.Broadcasts S512x192
  inb_S192x120_S192x120_0_0 : ∀ a, (![0, 0] : Fin 2 → Nat) a + S192x120.size a ≤ S192x120.size a
  h_S192x120 : 0 < S192x120.numel
  inb_S1x120_S1x120_0_0 : ∀ a, (![0, 0] : Fin 2 → Nat) a + S1x120.size a ≤ S1x120.size a
  h_S1x120 : 0 < S1x120.numel
  broadcasts_S1x120_S512x120 : S1x120.Broadcasts S512x120
  inb_S120x60_S120x60_0_0 : ∀ a, (![0, 0] : Fin 2 → Nat) a + S120x60.size a ≤ S120x60.size a
  h_S120x60 : 0 < S120x60.numel
  inb_S1x60_S1x60_0_0 : ∀ a, (![0, 0] : Fin 2 → Nat) a + S1x60.size a ≤ S1x60.size a
  h_S1x60 : 0 < S1x60.numel
  broadcasts_S1x60_S512x60 : S1x60.Broadcasts S512x60
  inb_S60x128_S60x128_0_0 : ∀ a, (![0, 0] : Fin 2 → Nat) a + S60x128.size a ≤ S60x128.size a
  h_S60x128 : 0 < S60x128.numel
  inb_S1x128_S1x128_0_0 : ∀ a, (![0, 0] : Fin 2 → Nat) a + S1x128.size a ≤ S1x128.size a
  h_S1x128 : 0 < S1x128.numel
  broadcasts_S1x128_S512x128 : S1x128.Broadcasts S512x128
  inb_S512x128_S512x128_0_0 : ∀ a, (![0, 0] : Fin 2 → Nat) a + S512x128.size a ≤ S512x128.size a
  h_S512x128 : 0 < S512x128.numel
  slices_S8192x128_S8192x10_0_0 : S8192x128.Slices ![0, 0] S8192x10
  dot_S512x784_S784x864_S512x864_1_0_0_1_n_n_wf : DotDims.WF S512x784 S784x864 S512x864 [1] [0] [0] [1] [] []
  dot_S512x864_S864x192_S512x192_1_0_0_1_n_n_wf : DotDims.WF S512x864 S864x192 S512x192 [1] [0] [0] [1] [] []
  dot_S512x192_S192x120_S512x120_1_0_0_1_n_n_wf : DotDims.WF S512x192 S192x120 S512x120 [1] [0] [0] [1] [] []
  dot_S512x120_S120x60_S512x60_1_0_0_1_n_n_wf : DotDims.WF S512x120 S120x60 S512x60 [1] [0] [0] [1] [] []
  dot_S512x60_S60x128_S512x128_1_0_0_1_n_n_wf : DotDims.WF S512x60 S60x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x784.size a ≤ S8192x784.size a
  hwx0_0 : ∀ i : grid0.Coords, EltTy.bits .f32 = 32 ∨ (Rect.block (s := S8192x784) S512x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x784x864.size a ≤ S4x784x864.size a
  hwx0_1 : ∀ i : grid0.Coords, EltTy.bits .bf16 = 32 ∨ (Rect.block (s := S4x784x864) S4x784x864.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x864.size a ≤ S1x864.size a
  hwx0_2 : ∀ i : grid0.Coords, EltTy.bits .f32 = 32 ∨ (Rect.block (s := S1x864) S1x864.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x864x192.size a ≤ S4x864x192.size a
  hwx0_3 : ∀ i : grid0.Coords, EltTy.bits .bf16 = 32 ∨ (Rect.block (s := S4x864x192) S4x864x192.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x192.size a ≤ S1x192.size a
  hwx0_4 : ∀ i : grid0.Coords, EltTy.bits .f32 = 32 ∨ (Rect.block (s := S1x192) S1x192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S192x120.size a ≤ S192x120.size a
  hwx0_5 : ∀ i : grid0.Coords, EltTy.bits .bf16 = 32 ∨ (Rect.block (s := S192x120) S192x120.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x120.size a ≤ S1x120.size a
  hwx0_6 : ∀ i : grid0.Coords, EltTy.bits .f32 = 32 ∨ (Rect.block (s := S1x120) S1x120.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S120x60.size a ≤ S120x60.size a
  hwx0_7 : ∀ i : grid0.Coords, EltTy.bits .bf16 = 32 ∨ (Rect.block (s := S120x60) S120x60.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x60.size a ≤ S1x60.size a
  hwx0_8 : ∀ i : grid0.Coords, EltTy.bits .f32 = 32 ∨ (Rect.block (s := S1x60) S1x60.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S60x128.size a ≤ S60x128.size a
  hwx0_9 : ∀ i : grid0.Coords, EltTy.bits .bf16 = 32 ∨ (Rect.block (s := S60x128) S60x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x128.size a ≤ S8192x128.size a
  hwx0_11 : ∀ i : grid0.Coords, EltTy.bits .f32 = 32 ∨ (Rect.block (s := S8192x128) S512x128.size (cc0_transform_11 i) (hinb0_11 i)).WholeWords (EltTy.packing .f32)

variable [Facts₀]

def dot_S512x784_S784x864_S512x864_1_0_0_1_n_n : DotDims S512x784 S784x864 S512x864 where
  lhsContracting := [1]
  rhsContracting := [0]
  lhsNonContracting := [0]
  rhsNonContracting := [1]
  lhsBatch := []
  rhsBatch := []
  wf := dot_S512x784_S784x864_S512x864_1_0_0_1_n_n_wf
def dot_S512x864_S864x192_S512x192_1_0_0_1_n_n : DotDims S512x864 S864x192 S512x192 where
  lhsContracting := [1]
  rhsContracting := [0]
  lhsNonContracting := [0]
  rhsNonContracting := [1]
  lhsBatch := []
  rhsBatch := []
  wf := dot_S512x864_S864x192_S512x192_1_0_0_1_n_n_wf
def dot_S512x192_S192x120_S512x120_1_0_0_1_n_n : DotDims S512x192 S192x120 S512x120 where
  lhsContracting := [1]
  rhsContracting := [0]
  lhsNonContracting := [0]
  rhsNonContracting := [1]
  lhsBatch := []
  rhsBatch := []
  wf := dot_S512x192_S192x120_S512x120_1_0_0_1_n_n_wf
def dot_S512x120_S120x60_S512x60_1_0_0_1_n_n : DotDims S512x120 S120x60 S512x60 where
  lhsContracting := [1]
  rhsContracting := [0]
  lhsNonContracting := [0]
  rhsNonContracting := [1]
  lhsBatch := []
  rhsBatch := []
  wf := dot_S512x120_S120x60_S512x60_1_0_0_1_n_n_wf
def dot_S512x60_S60x128_S512x128_1_0_0_1_n_n : DotDims S512x60 S60x128 S512x128 where
  lhsContracting := [1]
  rhsContracting := [0]
  lhsNonContracting := [0]
  rhsNonContracting := [1]
  lhsBatch := []
  rhsBatch := []
  wf := dot_S512x60_S60x128_S512x128_1_0_0_1_n_n_wf

abbrev win0_0 : Pipeline.Window sig grid0 :=
  Pipeline.Window.ofSpec (Memref.whole main_v0) S512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4x784x864.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x864.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S4x864x192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S192x120.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1x120.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S120x60.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1x60.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S60x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v1) S512x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4x784x864 : Shape := ⟨3, ![4, 784, 864]⟩
abbrev S1x864 : Shape := ⟨2, ![1, 864]⟩
abbrev S4x864x192 : Shape := ⟨3, ![4, 864, 192]⟩
abbrev S1x192 : Shape := ⟨2, ![1, 192]⟩
abbrev S192x120 : Shape := ⟨2, ![192, 120]⟩
abbrev S1x120 : Shape := ⟨2, ![1, 120]⟩
abbrev S120x60 : Shape := ⟨2, ![120, 60]⟩
abbrev S1x60 : Shape := ⟨2, ![1, 60]⟩
abbrev S60x128 : Shape := ⟨2, ![60, 128]⟩
abbrev S1x128 : Shape := ⟨2, ![1, 128]⟩
abbrev S8192x1x28x28 : Shape := ⟨4, ![8192, 1, 28, 28]⟩
abbrev S8192x784 : Shape := ⟨2, ![8192, 784]⟩
abbrev S8192x128 : Shape := ⟨2, ![8192, 128]⟩
abbrev S128x784 : Shape := ⟨2, ![128, 784]⟩
abbrev S128x128 : Shape := ⟨2, ![128, 128]⟩
abbrev S1x784x864 : Shape := ⟨3, ![1, 784, 864]⟩
abbrev S784x864 : Shape := ⟨2, ![784, 864]⟩
abbrev S128x864 : Shape := ⟨2, ![128, 864]⟩
abbrev S1x864x192 : Shape := ⟨3, ![1, 864, 192]⟩
abbrev S864x192 : Shape := ⟨2, ![864, 192]⟩
abbrev S128x192 : Shape := ⟨2, ![128, 192]⟩
abbrev S128x120 : Shape := ⟨2, ![128, 120]⟩
abbrev S128x60 : Shape := ⟨2, ![128, 60]⟩
abbrev S8192x10 : Shape := ⟨2, ![8192, 10]⟩

abbrev nBuf : Space → Nat
  | .hbm => 15
  | .vmem => 14
  | .smem => 0
  | _ => 0

abbrev bufTy : (tb : Table) → Fin (tcTables nBuf tb) → BufTy
  | .hbm, ⟨0, _⟩ => ⟨S4x784x864, .bf16⟩
  | .hbm, ⟨1, _⟩ => ⟨S1x864, .f32⟩
  | .hbm, ⟨2, _⟩ => ⟨S4x864x192, .bf16⟩
  | .hbm, ⟨3, _⟩ => ⟨S1x192, .f32⟩
  | .hbm, ⟨4, _⟩ => ⟨S192x120, .bf16⟩
  | .hbm, ⟨5, _⟩ => ⟨S1x120, .f32⟩
  | .hbm, ⟨6, _⟩ => ⟨S120x60, .bf16⟩
  | .hbm, ⟨7, _⟩ => ⟨S1x60, .f32⟩
  | .hbm, ⟨8, _⟩ => ⟨S60x128, .bf16⟩
  | .hbm, ⟨9, _⟩ => ⟨S1x128, .f32⟩
  | .hbm, ⟨10, _⟩ => ⟨S8192x1x28x28, .f32⟩
  | .hbm, ⟨11, _⟩ => ⟨S8192x784, .f32⟩
  | .hbm, ⟨12, _⟩ => ⟨S8192x784, .bf16⟩
  | .hbm, ⟨13, _⟩ => ⟨S8192x128, .f32⟩
  | .hbm, ⟨14, _⟩ => ⟨S8192x10, .f32⟩
  | .local _ .vmem, ⟨0, _⟩ => ⟨S128x784, .bf16⟩
  | .local _ .vmem, ⟨1, _⟩ => ⟨S128x784, .bf16⟩
  | .local _ .vmem, ⟨2, _⟩ => ⟨S4x784x864, .bf16⟩
  | .local _ .vmem, ⟨3, _⟩ => ⟨S1x864, .f32⟩
  | .local _ .vmem, ⟨4, _⟩ => ⟨S4x864x192, .bf16⟩
  | .local _ .vmem, ⟨5, _⟩ => ⟨S1x192, .f32⟩
  | .local _ .vmem, ⟨6, _⟩ => ⟨S192x120, .bf16⟩
  | .local _ .vmem, ⟨7, _⟩ => ⟨S1x120, .f32⟩
  | .local _ .vmem, ⟨8, _⟩ => ⟨S120x60, .bf16⟩
  | .local _ .vmem, ⟨9, _⟩ => ⟨S1x60, .f32⟩
  | .local _ .vmem, ⟨10, _⟩ => ⟨S60x128, .bf16⟩
  | .local _ .vmem, ⟨11, _⟩ => ⟨S1x128, .f32⟩
  | .local _ .vmem, ⟨12, _⟩ => ⟨S128x128, .f32⟩
  | .local _ .vmem, ⟨13, _⟩ => ⟨S128x128, .f32⟩
  | _, _ => ⟨S4x784x864, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x784 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x784x864 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x864 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x864x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S120x60 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x60 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S60x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S8192x1x28x28_S8192x784 : S8192x1x28x28.ShapeCasts S8192x784
  bitsLt_bf16_f32 : FTy.bits .bf16 < FTy.bits .f32
  inb_S128x784_S128x784_0_0 : ∀ a, (![0, 0] : Fin 2 → Nat) a + S128x784.size a ≤ S128x784.size a
  h_S128x784 : 0 < S128x784.numel
  shapeCasts_S128x784_S128x784 : S128x784.ShapeCasts S128x784
  inb_S4x784x864_S1x784x864_0_0_0 : ∀ a, (![0, 0, 0] : Fin 3 → Nat) a + S1x784x864.size a ≤ S4x784x864.size a
  h_S1x784x864 : 0 < S1x784x864.numel
  shapeCasts_S1x784x864_S784x864 : S1x784x864.ShapeCasts S784x864
  inb_S4x784x864_S1x784x864_1_0_0 : ∀ a, (![1, 0, 0] : Fin 3 → Nat) a + S1x784x864.size a ≤ S4x784x864.size a
  inb_S4x784x864_S1x784x864_2_0_0 : ∀ a, (![2, 0, 0] : Fin 3 → Nat) a + S1x784x864.size a ≤ S4x784x864.size a
  inb_S4x784x864_S1x784x864_3_0_0 : ∀ a, (![3, 0, 0] : Fin 3 → Nat) a + S1x784x864.size a ≤ S4x784x864.size a
  inb_S1x864_S1x864_0_0 : ∀ a, (![0, 0] : Fin 2 → Nat) a + S1x864.size a ≤ S1x864.size a
  h_S1x864 : 0 < S1x864.numel
  broadcasts_S1x864_S128x864 : S1x864.Broadcasts S128x864
  inb_S4x864x192_S1x864x192_0_0_0 : ∀ a, (![0, 0, 0] : Fin 3 → Nat) a + S1x864x192.size a ≤ S4x864x192.size a
  h_S1x864x192 : 0 < S1x864x192.numel
  shapeCasts_S1x864x192_S864x192 : S1x864x192.ShapeCasts S864x192
  inb_S4x864x192_S1x864x192_1_0_0 : ∀ a, (![1, 0, 0] : Fin 3 → Nat) a + S1x864x192.size a ≤ S4x864x192.size a
  inb_S4x864x192_S1x864x192_2_0_0 : ∀ a, (![2, 0, 0] : Fin 3 → Nat) a + S1x864x192.size a ≤ S4x864x192.size a
  inb_S4x864x192_S1x864x192_3_0_0 : ∀ a, (![3, 0, 0] : Fin 3 → Nat) a + S1x864x192.size a ≤ S4x864x192.size a
  inb_S1x192_S1x192_0_0 : ∀ a, (![0, 0] : Fin 2 → Nat) a + S1x192.size a ≤ S1x192.size a
  h_S1x192 : 0 < S1x192.numel
  broadcasts_S1x192_S128x192 : S1x192.Broadcasts S128x192
  inb_S192x120_S192x120_0_0 : ∀ a, (![0, 0] : Fin 2 → Nat) a + S192x120.size a ≤ S192x120.size a
  h_S192x120 : 0 < S192x120.numel
  inb_S1x120_S1x120_0_0 : ∀ a, (![0, 0] : Fin 2 → Nat) a + S1x120.size a ≤ S1x120.size a
  h_S1x120 : 0 < S1x120.numel
  broadcasts_S1x120_S128x120 : S1x120.Broadcasts S128x120
  inb_S120x60_S120x60_0_0 : ∀ a, (![0, 0] : Fin 2 → Nat) a + S120x60.size a ≤ S120x60.size a
  h_S120x60 : 0 < S120x60.numel
  inb_S1x60_S1x60_0_0 : ∀ a, (![0, 0] : Fin 2 → Nat) a + S1x60.size a ≤ S1x60.size a
  h_S1x60 : 0 < S1x60.numel
  broadcasts_S1x60_S128x60 : S1x60.Broadcasts S128x60
  inb_S60x128_S60x128_0_0 : ∀ a, (![0, 0] : Fin 2 → Nat) a + S60x128.size a ≤ S60x128.size a
  h_S60x128 : 0 < S60x128.numel
  inb_S1x128_S1x128_0_0 : ∀ a, (![0, 0] : Fin 2 → Nat) a + S1x128.size a ≤ S1x128.size a
  h_S1x128 : 0 < S1x128.numel
  broadcasts_S1x128_S128x128 : S1x128.Broadcasts S128x128
  inb_S128x128_S128x128_0_0 : ∀ a, (![0, 0] : Fin 2 → Nat) a + S128x128.size a ≤ S128x128.size a
  h_S128x128 : 0 < S128x128.numel
  slices_S8192x128_S8192x10_0_0 : S8192x128.Slices ![0, 0] S8192x10
  dot_S128x784_S784x864_S128x864_1_0_0_1_n_n_wf : DotDims.WF S128x784 S784x864 S128x864 [1] [0] [0] [1] [] []
  dot_S128x864_S864x192_S128x192_1_0_0_1_n_n_wf : DotDims.WF S128x864 S864x192 S128x192 [1] [0] [0] [1] [] []
  dot_S128x192_S192x120_S128x120_1_0_0_1_n_n_wf : DotDims.WF S128x192 S192x120 S128x120 [1] [0] [0] [1] [] []
  dot_S128x120_S120x60_S128x60_1_0_0_1_n_n_wf : DotDims.WF S128x120 S120x60 S128x60 [1] [0] [0] [1] [] []
  dot_S128x60_S60x128_S128x128_1_0_0_1_n_n_wf : DotDims.WF S128x60 S60x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x784.size a ≤ S8192x784.size a
  hwx0_0 : ∀ i : grid0.Coords, EltTy.bits .bf16 = 32 ∨ (Rect.block (s := S8192x784) S128x784.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x784x864.size a ≤ S4x784x864.size a
  hwx0_1 : ∀ i : grid0.Coords, EltTy.bits .bf16 = 32 ∨ (Rect.block (s := S4x784x864) S4x784x864.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x864.size a ≤ S1x864.size a
  hwx0_2 : ∀ i : grid0.Coords, EltTy.bits .f32 = 32 ∨ (Rect.block (s := S1x864) S1x864.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x864x192.size a ≤ S4x864x192.size a
  hwx0_3 : ∀ i : grid0.Coords, EltTy.bits .bf16 = 32 ∨ (Rect.block (s := S4x864x192) S4x864x192.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x192.size a ≤ S1x192.size a
  hwx0_4 : ∀ i : grid0.Coords, EltTy.bits .f32 = 32 ∨ (Rect.block (s := S1x192) S1x192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S192x120.size a ≤ S192x120.size a
  hwx0_5 : ∀ i : grid0.Coords, EltTy.bits .bf16 = 32 ∨ (Rect.block (s := S192x120) S192x120.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x120.size a ≤ S1x120.size a
  hwx0_6 : ∀ i : grid0.Coords, EltTy.bits .f32 = 32 ∨ (Rect.block (s := S1x120) S1x120.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S120x60.size a ≤ S120x60.size a
  hwx0_7 : ∀ i : grid0.Coords, EltTy.bits .bf16 = 32 ∨ (Rect.block (s := S120x60) S120x60.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x60.size a ≤ S1x60.size a
  hwx0_8 : ∀ i : grid0.Coords, EltTy.bits .f32 = 32 ∨ (Rect.block (s := S1x60) S1x60.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S60x128.size a ≤ S60x128.size a
  hwx0_9 : ∀ i : grid0.Coords, EltTy.bits .bf16 = 32 ∨ (Rect.block (s := S60x128) S60x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S8192x128.size a
  hwx0_11 : ∀ i : grid0.Coords, EltTy.bits .f32 = 32 ∨ (Rect.block (s := S8192x128) S128x128.size (cc0_transform_11 i) (hinb0_11 i)).WholeWords (EltTy.packing .f32)

variable [Facts₀]

def dot_S128x784_S784x864_S128x864_1_0_0_1_n_n : DotDims S128x784 S784x864 S128x864 where
  lhsContracting := [1]
  rhsContracting := [0]
  lhsNonContracting := [0]
  rhsNonContracting := [1]
  lhsBatch := []
  rhsBatch := []
  wf := dot_S128x784_S784x864_S128x864_1_0_0_1_n_n_wf
def dot_S128x864_S864x192_S128x192_1_0_0_1_n_n : DotDims S128x864 S864x192 S128x192 where
  lhsContracting := [1]
  rhsContracting := [0]
  lhsNonContracting := [0]
  rhsNonContracting := [1]
  lhsBatch := []
  rhsBatch := []
  wf := dot_S128x864_S864x192_S128x192_1_0_0_1_n_n_wf
def dot_S128x192_S192x120_S128x120_1_0_0_1_n_n : DotDims S128x192 S192x120 S128x120 where
  lhsContracting := [1]
  rhsContracting := [0]
  lhsNonContracting := [0]
  rhsNonContracting := [1]
  lhsBatch := []
  rhsBatch := []
  wf := dot_S128x192_S192x120_S128x120_1_0_0_1_n_n_wf
def dot_S128x120_S120x60_S128x60_1_0_0_1_n_n : DotDims S128x120 S120x60 S128x60 where
  lhsContracting := [1]
  rhsContracting := [0]
  lhsNonContracting := [0]
  rhsNonContracting := [1]
  lhsBatch := []
  rhsBatch := []
  wf := dot_S128x120_S120x60_S128x60_1_0_0_1_n_n_wf
def dot_S128x60_S60x128_S128x128_1_0_0_1_n_n : DotDims S128x60 S60x128 S128x128 where
  lhsContracting := [1]
  rhsContracting := [0]
  lhsNonContracting := [0]
  rhsNonContracting := [1]
  lhsBatch := []
  rhsBatch := []
  wf := dot_S128x60_S60x128_S128x128_1_0_0_1_n_n_wf

abbrev win0_0 : Pipeline.Window sig grid0 :=
  Pipeline.Window.ofSpec (Memref.whole main_v1) S128x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4x784x864.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x864.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S4x864x192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S192x120.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1x120.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S120x60.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1x60.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S60x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S128x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== Proof.LibDenseRows.lean ====
/-
  Reading a dense layer one row at a time, at the ideal values.

  A block of `m` rows times a `k × n` weight matrix, accumulated into zeros, has at row `a` and column `b` the sum over the
  contracted coordinate of row `a`'s entries times column `b`'s: no other row of the block enters, so the value of a row does
  not depend on how many rows were multiplied together. And a slab `[1, K, N]` loaded from a stack `[Q, K, N]` at offset
  `(q, 0, 0)` reads, at `(0, a, b)`, the stack at `(q, a, b)`.
-/
import Idealize.ShloMosaic.PureOps.Ideal.Laws
import Idealize.ShloMosaic.Lib.ValueIdx
import Idealize.ShloMosaic.Lib.Pipeline.Value

noncomputable section

namespace Idealize.ShloMosaic.DenseRows

open Idealize.ShloMosaic Idealize.ShloMosaic.ValueIdx

/-- The product of an `m × k` block by a `k × n` matrix into a zero accumulator, read at row `a` and column `b`: the sum over
    the contracted coordinate `c` of `A (a, c) · B (c, b)`. Only row `a` of the block is read. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

/-- One slab of a stack: the `[1, K, N]` rectangle at offset `(q, 0, 0)` of a `[Q, K, N]` array, read at `(0, a, b)`, is the
    array at `(q, a, b)`. -/
theorem ld_slab_apply {Val : EltTy → Type} {e : EltTy} {Q K N : Nat} (x : (⟨3, ![Q, K, N]⟩ : Shape).Idx → Val e)
    (q : Nat) (hq : q < Q)
    (inb : ∀ ax, (![q, 0, 0] : Fin 3 → Nat) ax + (⟨3, ![1, K, N]⟩ : Shape).size ax ≤ (⟨3, ![Q, K, N]⟩ : Shape).size ax)
    (a : Fin K) (b : Fin N) :
    View.ld x (Rect.unit (s := ⟨3, ![Q, K, N]⟩) ![q, 0, 0] (⟨3, ![1, K, N]⟩ : Shape).size inb) (ix3 (0 : Fin 1) a b)
      = x (ix3 (⟨q, hq⟩ : Fin Q) a b) := by
  show x _ = x _
  congr 1
  funext ax; apply Fin.ext
  match ax with
  | ⟨0, _⟩ => show q + 1 * 0 = q; omega
  | ⟨1, _⟩ => show 0 + 1 * a.val = a.val; omega
  | ⟨2, _⟩ => show 0 + 1 * b.val = b.val; omega

/-- The same for the whole slab: as a matrix of its coordinates it is slab `q` of the stack. -/
theorem ld_slab_fun {Val : EltTy → Type} {e : EltTy} {Q K N : Nat} (x : (⟨3, ![Q, K, N]⟩ : Shape).Idx → Val e)
    (q : Nat) (hq : q < Q)
    (inb : ∀ ax, (![q, 0, 0] : Fin 3 → Nat) ax + (⟨3, ![1, K, N]⟩ : Shape).size ax ≤ (⟨3, ![Q, K, N]⟩ : Shape).size ax) :
    (fun (a : Fin K) (b : Fin N) =>
        View.ld x (Rect.unit (s := ⟨3, ![Q, K, N]⟩) ![q, 0, 0] (⟨3, ![1, K, N]⟩ : Shape).size inb) (ix3 (0 : Fin 1) a b))
      = fun a b => x (ix3 (⟨q, hq⟩ : Fin Q) a b) :=
  funext fun a => funext fun b => ld_slab_apply x q hq inb a b

end Idealize.ShloMosaic.DenseRows

end
-- ==== Proof.RowNet.lean ====
/-
  The network, one image at a time, over the extended reals.

  An image is a row of 784 numbers. Each of the two convolution-and-pooling stages is four dense layers (one per
  position inside the 2 × 2 pooling window) whose outputs are maximised entry by entry, then shifted by a bias and floored
  at zero; two more dense layers with a bias and the floor follow, and a last dense layer with a bias gives 128 numbers.
  A dense layer sends a row `x` to the row whose entry `c` is the sum over `k` of `x k · w k c`. Nothing here mixes
  two images: the array of results has, in row `r`, the network of row `r` of the images.
-/
import Idealize.ShloMosaic.PureOps.Ideal
import Idealize.ShloMosaic.Lib.ValueIdx

noncomputable section

namespace Cert.RowNet

open Idealize.ShloMosaic Idealize.ShloMosaic.ValueIdx

/-- The floor of the rectifier: what the all-zero f32 word denotes. -/
abbrev floor0 : EReal := Ideal.ofBits .f32 0x00000000#32

/-- A dense layer on one row: entry `c` is `∑ k, x k · w k c`. -/
def dot {K N : Nat} (x : Fin K → EReal) (w : Fin K → Fin N → EReal) (c : Fin N) : EReal :=
  ∑ k : Fin K, x k * w k c

/-- A convolution-and-pooling stage on one row: the four dense layers of the pooling window's four positions, maximised entry
    by entry in their order, then the bias and the floor. -/
def pooled {K N : Nat} (x : Fin K → EReal) (w0 w1 w2 w3 : Fin K → Fin N → EReal) (b : Fin N → EReal) (c : Fin N) : EReal :=
  max (max (max (max (dot x w0 c) (dot x w1 c)) (dot x w2 c)) (dot x w3 c) + b c) floor0

/-- A dense layer with its bias and the floor. -/
def dense {K N : Nat} (x : Fin K → EReal) (w : Fin K → Fin N → EReal) (b : Fin N → EReal) (c : Fin N) : EReal :=
  max (dot x w c + b c) floor0

/-- The last layer: a dense layer and its bias, no floor. -/
def affine {K N : Nat} (x : Fin K → EReal) (w : Fin K → Fin N → EReal) (b : Fin N → EReal) (c : Fin N) : EReal :=
  dot x w c + b c

/-- Slab `q` of a stack of four weight matrices. -/
abbrev slab {K N : Nat} (a : (⟨3, ![4, K, N]⟩ : Shape).Idx → EReal) (q : Fin 4) : Fin K → Fin N → EReal :=
  fun k c => a (ix3 q k c)
/-- A weight matrix by its coordinates. -/
abbrev mat {K N : Nat} (w : (⟨2, ![K, N]⟩ : Shape).Idx → EReal) : Fin K → Fin N → EReal := fun k c => w (ix2 k c)
/-- A bias stored as one row. -/
abbrev bias {N : Nat} (b : (⟨2, ![1, N]⟩ : Shape).Idx → EReal) : Fin N → EReal := fun c => b (ix2 (0 : Fin 1) c)

/-- The 128 results of one image `x` under the ten parameter arrays. -/
def rowOut (x : Fin 784 → EReal)
    (a1 : (⟨3, ![4, 784, 864]⟩ : Shape).Idx → EReal) (b1 : (⟨2, ![1, 864]⟩ : Shape).Idx → EReal)
    (a2 : (⟨3, ![4, 864, 192]⟩ : Shape).Idx → EReal) (b2 : (⟨2, ![1, 192]⟩ : Shape).Idx → EReal)
    (w3 : (⟨2, ![192, 120]⟩ : Shape).Idx → EReal) (b3 : (⟨2, ![1, 120]⟩ : Shape).Idx → EReal)
    (w4 : (⟨2, ![120, 60]⟩ : Shape).Idx → EReal) (b4 : (⟨2, ![1, 60]⟩ : Shape).Idx → EReal)
    (w5 : (⟨2, ![60, 128]⟩ : Shape).Idx → EReal) (b5 : (⟨2, ![1, 128]⟩ : Shape).Idx → EReal) : Fin 128 → EReal :=
  affine
    (dense
      (dense
        (pooled (pooled x (slab a1 0) (slab a1 1) (slab a1 2) (slab a1 3) (bias b1))
          (slab a2 0) (slab a2 1) (slab a2 2) (slab a2 3) (bias b2))
        (mat w3) (bias b3))
      (mat w4) (bias b4))
    (mat w5) (bias b5)

/-- The array of results of all 8192 images: row `r` is the network of row `r` of the images. -/
def logits (x : (⟨2, ![8192, 784]⟩ : Shape).Idx → EReal)
    (a1 : (⟨3, ![4, 784, 864]⟩ : Shape).Idx → EReal) (b1 : (⟨2, ![1, 864]⟩ : Shape).Idx → EReal)
    (a2 : (⟨3, ![4, 864, 192]⟩ : Shape).Idx → EReal) (b2 : (⟨2, ![1, 192]⟩ : Shape).Idx → EReal)
    (w3 : (⟨2, ![192, 120]⟩ : Shape).Idx → EReal) (b3 : (⟨2, ![1, 120]⟩ : Shape).Idx → EReal)
    (w4 : (⟨2, ![120, 60]⟩ : Shape).Idx → EReal) (b4 : (⟨2, ![1, 60]⟩ : Shape).Idx → EReal)
    (w5 : (⟨2, ![60, 128]⟩ : Shape).Idx → EReal) (b5 : (⟨2, ![1, 128]⟩ : Shape).Idx → EReal) :
    (⟨2, ![8192, 128]⟩ : Shape).Idx → EReal :=
  fun i => rowOut (fun k => x (ix2 (i 0) k)) a1 b1 a2 b2 w3 b3 w4 b4 w5 b5 (i 1)

/-- The array of results at row `r`, entry `q`. -/
theorem logits_apply (x : (⟨2, ![8192, 784]⟩ : Shape).Idx → EReal)
    (a1 : (⟨3, ![4, 784, 864]⟩ : Shape).Idx → EReal) (b1 : (⟨2, ![1, 864]⟩ : Shape).Idx → EReal)
    (a2 : (⟨3, ![4, 864, 192]⟩ : Shape).Idx → EReal) (b2 : (⟨2, ![1, 192]⟩ : Shape).Idx → EReal)
    (w3 : (⟨2, ![192, 120]⟩ : Shape).Idx → EReal) (b3 : (⟨2, ![1, 120]⟩ : Shape).Idx → EReal)
    (w4 : (⟨2, ![120, 60]⟩ : Shape).Idx → EReal) (b4 : (⟨2, ![1, 60]⟩ : Shape).Idx → EReal)
    (w5 : (⟨2, ![60, 128]⟩ : Shape).Idx → EReal) (b5 : (⟨2, ![1, 128]⟩ : Shape).Idx → EReal)
    (r : Fin 8192) (q : Fin 128) :
    logits x a1 b1 a2 b2 w3 b3 w4 b4 w5 b5 (ix2 r q)
      = rowOut (fun k => x (ix2 r k)) a1 b1 a2 b2 w3 b3 w4 b4 w5 b5 q := rfl

/-- What the program returns: the images flattened to rows of 784, the network row by row, and of each row's 128 numbers the
    first ten. (`hflat` and `hkeep` are the evidence that the flattening keeps the number of entries and that the kept box
    lies inside the array.) -/
def result (x : (⟨4, ![8192, 1, 28, 28]⟩ : Shape).Idx → EReal)
    (hflat : (⟨4, ![8192, 1, 28, 28]⟩ : Shape).ShapeCasts ⟨2, ![8192, 784]⟩)
    (hkeep : (⟨2, ![8192, 128]⟩ : Shape).Slices ![0, 0] ⟨2, ![8192, 10]⟩)
    (a1 : (⟨3, ![4, 784, 864]⟩ : Shape).Idx → EReal) (b1 : (⟨2, ![1, 864]⟩ : Shape).Idx → EReal)
    (a2 : (⟨3, ![4, 864, 192]⟩ : Shape).Idx → EReal) (b2 : (⟨2, ![1, 192]⟩ : Shape).Idx → EReal)
    (w3 : (⟨2, ![192, 120]⟩ : Shape).Idx → EReal) (b3 : (⟨2, ![1, 120]⟩ : Shape).Idx → EReal)
    (w4 : (⟨2, ![120, 60]⟩ : Shape).Idx → EReal) (b4 : (⟨2, ![1, 60]⟩ : Shape).Idx → EReal)
    (w5 : (⟨2, ![60, 128]⟩ : Shape).Idx → EReal) (b5 : (⟨2, ![1, 128]⟩ : Shape).Idx → EReal) :
    (⟨2, ![8192, 10]⟩ : Shape).Idx → EReal :=
  extractStridedSlice ⟨2, ![8192, 10]⟩ ![0, 0]
    (logits (shapeCast ⟨2, ![8192, 784]⟩ x hflat) a1 b1 a2 b2 w3 b3 w4 b4 w5 b5) hkeep

end Cert.RowNet

end
-- ==== Proof.KernelBlock.lean ====
/-
  What one grid point of the kernel leaves in its output block: row `p` of the block is the network of row `p` of the
  point's block of images.

  The body multiplies a block of 512 images by each weight matrix, but every product is read one row at a time
  (a row of a product mentions only that row of the left factor), the maxima, the biases and the floors act entry by entry,
  and a change of float format is the identity on extended reals: so row `p`, entry `q` of what the body stores is
  `RowNet.rowOut` of row `p` of the loaded images.
-/
import proofs.«145349_g2000104654252751_pallasbulk_1105_2_alg».proof.Proof.Gen.KernelIdeal.Frame
import proofs.«145349_g2000104654252751_pallasbulk_1105_2_alg».proof.Proof.LibDenseRows
import proofs.«145349_g2000104654252751_pallasbulk_1105_2_alg».proof.Proof.RowNet
import Idealize.ShloMosaic.Lib.ValueLayout

noncomputable section

namespace Cert.KernelIdeal.Block

open Idealize.ShloMosaic Idealize.ShloMosaic.ValueIdx Idealize.ShloMosaic.DenseRows
open Cert.KernelIdeal Cert.KernelIdeal.Gen Cert.RowNet

theorem hz2 : (![0, 0] : Fin 2 → Nat) = fun _ => 0 := funext fun a => by fin_cases a <;> rfl

/-- Each product of the body is a plain rows-by-columns product. -/
theorem d1 : dot_S512x784_S784x864_S512x864_1_0_0_1_n_n = DotDims.plain 512 784 864 := rfl
theorem d2 : dot_S512x864_S864x192_S512x192_1_0_0_1_n_n = DotDims.plain 512 864 192 := rfl
theorem d3 : dot_S512x192_S192x120_S512x120_1_0_0_1_n_n = DotDims.plain 512 192 120 := rfl
theorem d4 : dot_S512x120_S120x60_S512x60_1_0_0_1_n_n = DotDims.plain 512 120 60 := rfl
theorem d5 : dot_S512x60_S60x128_S512x128_1_0_0_1_n_n = DotDims.plain 512 60 128 := rfl

/-- The first convolution-and-pooling stage, row `p`: the pooled stage of row `p` of the images under the four slabs. -/
theorem stage1_row (v0 : FVec Ideal S512x784 .f32) (v3 v6 v10 v14 : FVec Ideal S1x784x864 .bf16) (v18 : FVec Ideal S1x864 .f32)
    (p : Fin 512) (c : Fin 864) :
    k0_pay2 (F := Ideal) v0 v3 v6 v10 v14 v18 (ix2 p c)
      = pooled (fun k => v0 (ix2 p k)) (fun k c => v3 (ix3 (0 : Fin 1) k c)) (fun k c => v6 (ix3 (0 : Fin 1) k c))
          (fun k c => v10 (ix3 (0 : Fin 1) k c)) (fun k c => v14 (ix3 (0 : Fin 1) k c)) (fun c => v18 (ix2 (0 : Fin 1) c)) c := by
  unfold k0_pay2 pooled RowNet.dot
  simp only [d1, maximumf_apply, addf_apply, truncf_apply, broadcast_apply, matmul_plain_zero_apply,
    broadcastTo_1b_ab_apply, shapeCast_1ab_ab_apply, shapeCast_self]
  rfl

/-- The second stage's product with its first slab, row `p`: a dense layer on row `p` of the first stage's output. -/
theorem conv2a_row (v0 : FVec Ideal S512x784 .f32) (v3 v6 v10 v14 : FVec Ideal S1x784x864 .bf16) (v18 : FVec Ideal S1x864 .f32)
    (v24 : FVec Ideal S1x864x192 .bf16) (p : Fin 512) (c : Fin 192) :
    k0_pay3 (F := Ideal) v0 v3 v6 v10 v14 v18 v24 (ix2 p c)
      = RowNet.dot (fun k => k0_pay2 (F := Ideal) v0 v3 v6 v10 v14 v18 (ix2 p k)) (fun k c => v24 (ix3 (0 : Fin 1) k c)) c := by
  unfold k0_pay3 RowNet.dot
  simp only [d2, matmul_plain_zero_apply, shapeCast_1ab_ab_apply]

/-- The same with the second slab. -/
theorem conv2b_row (v0 : FVec Ideal S512x784 .f32) (v3 v6 v10 v14 : FVec Ideal S1x784x864 .bf16) (v18 : FVec Ideal S1x864 .f32)
    (v27 : FVec Ideal S1x864x192 .bf16) (p : Fin 512) (c : Fin 192) :
    k0_pay4 (F := Ideal) v0 v3 v6 v10 v14 v18 v27 (ix2 p c)
      = RowNet.dot (fun k => k0_pay2 (F := Ideal) v0 v3 v6 v10 v14 v18 (ix2 p k)) (fun k c => v27 (ix3 (0 : Fin 1) k c)) c := by
  unfold k0_pay4 RowNet.dot
  simp only [d2, matmul_plain_zero_apply, shapeCast_1ab_ab_apply]

/-- The rest of the second stage and the three dense layers, row `p`: from row `p` of the first stage's output `v23` and of
    the second stage's first two products `v26`, `v29`. -/
theorem tail_row (v23 : FVec Ideal S512x864 .bf16) (v26 v29 : FVec Ideal S512x192 .f32) (v31 v35 : FVec Ideal S1x864x192 .bf16)
    (v39 : FVec Ideal S1x192 .f32) (v45 : FVec Ideal S192x120 .bf16) (v47 : FVec Ideal S1x120 .f32)
    (v53 : FVec Ideal S120x60 .bf16) (v55 : FVec Ideal S1x60 .f32) (v61 : FVec Ideal S60x128 .bf16) (p : Fin 512) (c : Fin 128) :
    k0_pay5 (F := Ideal) v23 v26 v29 v31 v35 v39 v45 v47 v53 v55 v61 (ix2 p c)
      = RowNet.dot
          (dense
            (dense
              (fun j => max (max (max (max (v26 (ix2 p j)) (v29 (ix2 p j)))
                    (RowNet.dot (fun k => v23 (ix2 p k)) (fun k c => v31 (ix3 (0 : Fin 1) k c)) j))
                    (RowNet.dot (fun k => v23 (ix2 p k)) (fun k c => v35 (ix3 (0 : Fin 1) k c)) j)
                  + v39 (ix2 (0 : Fin 1) j)) floor0)
              (fun k c => v45 (ix2 k c)) (fun c => v47 (ix2 (0 : Fin 1) c)))
            (fun k c => v53 (ix2 k c)) (fun c => v55 (ix2 (0 : Fin 1) c)))
          (fun k c => v61 (ix2 k c)) c := by
  unfold k0_pay5 dense RowNet.dot
  simp only [d2, d3, d4, d5, maximumf_apply, addf_apply, truncf_apply, broadcast_apply, matmul_plain_zero_apply,
    broadcastTo_1b_ab_apply, shapeCast_1ab_ab_apply]
  rfl

/-- The last bias, entry by entry. -/
theorem last_row (v62 : FVec Ideal S512x128 .f32) (v63 : FVec Ideal S1x128 .f32) (p : Fin 512) (c : Fin 128) :
    k0_pay1 (F := Ideal) v62 v63 (ix2 p c) = v62 (ix2 p c) + v63 (ix2 (0 : Fin 1) c) := by
  unfold k0_pay1
  simp only [addf_apply, broadcastTo_1b_ab_apply]

/-- WHAT THE BODY STORES, row `p`, entry `q`: the network of row `p` of the block of images it loaded, under the parameter
    arrays it loaded whole. -/
theorem block_row (x0 : Vec Ideal S512x784 .f32) (x1 : Vec Ideal S4x784x864 .bf16) (x2 : Vec Ideal S1x864 .f32)
    (x3 : Vec Ideal S4x864x192 .bf16) (x4 : Vec Ideal S1x192 .f32) (x5 : Vec Ideal S192x120 .bf16) (x6 : Vec Ideal S1x120 .f32)
    (x7 : Vec Ideal S120x60 .bf16) (x8 : Vec Ideal S1x60 .f32) (x9 : Vec Ideal S60x128 .bf16) (x10 : Vec Ideal S1x128 .f32)
    (p : Fin 512) (q : Fin 128) :
    out0_11 (F := Ideal) x0 x1 x2 x3 x4 x5 x6 x7 x8 x9 x10 (ix2 p q)
      = rowOut (fun k => x0 (ix2 p k)) x1 x2 x3 x4 x5 x6 x7 x8 x9 x10 q := by
  unfold out0_11
  rw [View.canon_unit_zero hz2]
  simp only [View.ld_unit_zero (S := S512x784) hz2, View.ld_unit_zero (S := S1x864) hz2, View.ld_unit_zero (S := S1x192) hz2,
    View.ld_unit_zero (S := S192x120) hz2, View.ld_unit_zero (S := S1x120) hz2, View.ld_unit_zero (S := S120x60) hz2,
    View.ld_unit_zero (S := S1x60) hz2, View.ld_unit_zero (S := S60x128) hz2, View.ld_unit_zero (S := S1x128) hz2]
  rw [last_row, tail_row]
  simp only [conv2a_row, conv2b_row, stage1_row]
  rw [ld_slab_fun (Q := 4) x1 0 (by decide), ld_slab_fun (Q := 4) x1 1 (by decide), ld_slab_fun (Q := 4) x1 2 (by decide),
    ld_slab_fun (Q := 4) x1 3 (by decide), ld_slab_fun (Q := 4) x3 0 (by decide), ld_slab_fun (Q := 4) x3 1 (by decide),
    ld_slab_fun (Q := 4) x3 2 (by decide), ld_slab_fun (Q := 4) x3 3 (by decide)]
  unfold rowOut affine
  rfl

end Cert.KernelIdeal.Block

end
-- ==== Proof.KernelArray.lean ====
/-
  The kernel's whole run, read as values.

  The grid has 16 points; point `t` is given rows `512 t … 512 t + 511` of the flattened images and every parameter array
  whole, and writes rows `512 t … 512 t + 511` of the result array. Since a row of what a point stores is the network of
  the same row of its images (`Block.block_row`), what point `t` writes back is block `t` of ONE array, `RowNet.logits` of
  the flattened images: the blocks tile the array, so that is what it holds after the run. Before the grid the images are
  flattened; after it the first ten columns are kept: the program returns `RowNet.result` of its arguments.
-/
import proofs.«145349_g2000104654252751_pallasbulk_1105_2_alg».proof.Proof.KernelBlock
import Idealize.ShloMosaic.Lib.Pipeline.Value
import Idealize.ShloMosaic.Lib.StableHlo.Run
import Idealize.ShloMosaic.Lib.Tactic

noncomputable section

namespace Cert.KernelIdeal.Arr

open Idealize.ShloMosaic Idealize.ShloMosaic.TcCoe Idealize.SL.Sem Idealize.ShloMosaic.ValueIdx
open Idealize.ShloMosaic.Pipeline (Dat)
open Cert.KernelIdeal Cert.KernelIdeal.Gen Cert.RowNet

variable (m : (ℓ : Loc nD τ sig) → Buf (Elt Ideal) ℓ) (ρ : Dev nD → PrngReg)

/-! ## Where each window's block sits, decided over the grid -/

/-- The images' window and the result's window move one block of 512 rows per point. -/
theorem idx_imgs : ∀ t : Fin cfg0.N, win0_0.index t (0 : Fin 2) = t.val ∧ win0_0.index t (1 : Fin 2) = 0 :=
  (by decide +kernel : ∀ t : Fin grid0.N, _)
theorem idx_out : ∀ t : Fin cfg0.N, win0_11.index t (0 : Fin 2) = t.val ∧ win0_11.index t (1 : Fin 2) = 0 :=
  (by decide +kernel : ∀ t : Fin grid0.N, _)
/-- Every parameter's window stays at its one block, the whole array. -/
theorem idx_p1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx_p2 : ∀ t : Fin cfg0.N, win0_2.index t (0 : Fin 2) = 0 ∧ win0_2.index t (1 : Fin 2) = 0 :=
  (by decide +kernel : ∀ t : Fin grid0.N, _)
theorem idx_p3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx_p4 : ∀ t : Fin cfg0.N, win0_4.index t (0 : Fin 2) = 0 ∧ win0_4.index t (1 : Fin 2) = 0 :=
  (by decide +kernel : ∀ t : Fin grid0.N, _)
theorem idx_p5 : ∀ t : Fin cfg0.N, win0_5.index t (0 : Fin 2) = 0 ∧ win0_5.index t (1 : Fin 2) = 0 :=
  (by decide +kernel : ∀ t : Fin grid0.N, _)
theorem idx_p6 : ∀ t : Fin cfg0.N, win0_6.index t (0 : Fin 2) = 0 ∧ win0_6.index t (1 : Fin 2) = 0 :=
  (by decide +kernel : ∀ t : Fin grid0.N, _)
theorem idx_p7 : ∀ t : Fin cfg0.N, win0_7.index t (0 : Fin 2) = 0 ∧ win0_7.index t (1 : Fin 2) = 0 :=
  (by decide +kernel : ∀ t : Fin grid0.N, _)
theorem idx_p8 : ∀ t : Fin cfg0.N, win0_8.index t (0 : Fin 2) = 0 ∧ win0_8.index t (1 : Fin 2) = 0 :=
  (by decide +kernel : ∀ t : Fin grid0.N, _)
theorem idx_p9 : ∀ t : Fin cfg0.N, win0_9.index t (0 : Fin 2) = 0 ∧ win0_9.index t (1 : Fin 2) = 0 :=
  (by decide +kernel : ∀ t : Fin grid0.N, _)
theorem idx_p10 : ∀ t : Fin cfg0.N, win0_10.index t (0 : Fin 2) = 0 ∧ win0_10.index t (1 : Fin 2) = 0 :=
  (by decide +kernel : ∀ t : Fin grid0.N, _)

/-! ## Each input block as entries of its array -/

/-- Row `p` of the images' block at point `t` is row `512 t + p` of the flattened images. -/
theorem imgs_row (c : Dev nD) (t : Fin cfg0.N) (p : Fin 512) (r : Fin 8192) (hr : r.val = 512 * t.val + p.val) (k : Fin 784) :
    (iblk m c 0 t : Vec Ideal S512x784 .f32) (ix2 p k) = (V m c main_v0 : S8192x784.Idx → Elt Ideal .f32) (ix2 r k) := by
  show V m c main_v0 (((cfg0.win 0).blk t).view.emb (ix2 p k)) = V m c main_v0 (ix2 r k)
  congr 1
  funext a; apply Fin.ext
  obtain ⟨h0, h1⟩ := idx_imgs t
  match a with
  | ⟨0, _⟩ => show win0_0.index t (0 : Fin 2) * 512 + 1 * p.val = r.val; rw [h0, hr]; omega
  | ⟨1, _⟩ => show win0_0.index t (1 : Fin 2) * 784 + 1 * k.val = k.val; rw [h1]; omega

/-- Each parameter's block, at every point, is the parameter array. -/
theorem par1 (c : Dev nD) (t : Fin cfg0.N) : (iblk m c 1 t : Vec Ideal S4x784x864 .bf16) = V m c main_arg0 := by
  funext x
  show V m c main_arg0 (((cfg0.win 1).blk t).view.emb x) = V m c main_arg0 x
  congr 1
  funext a; apply Fin.ext
  obtain ⟨h0, h1, h2⟩ := idx_p1 t
  match a with
  | ⟨0, _⟩ => show win0_1.index t (0 : Fin 3) * 4 + 1 * (x 0).val = (x 0).val; rw [h0]; omega
  | ⟨1, _⟩ => show win0_1.index t (1 : Fin 3) * 784 + 1 * (x 1).val = (x 1).val; rw [h1]; omega
  | ⟨2, _⟩ => show win0_1.index t (2 : Fin 3) * 864 + 1 * (x 2).val = (x 2).val; rw [h2]; omega
theorem par2 (c : Dev nD) (t : Fin cfg0.N) : (iblk m c 2 t : Vec Ideal S1x864 .f32) = V m c main_arg1 := by
  funext x
  show V m c main_arg1 (((cfg0.win 2).blk t).view.emb x) = V m c main_arg1 x
  congr 1
  funext a; apply Fin.ext
  obtain ⟨h0, h1⟩ := idx_p2 t
  match a with
  | ⟨0, _⟩ => show win0_2.index t (0 : Fin 2) * 1 + 1 * (x 0).val = (x 0).val; rw [h0]; omega
  | ⟨1, _⟩ => show win0_2.index t (1 : Fin 2) * 864 + 1 * (x 1).val = (x 1).val; rw [h1]; omega
theorem par3 (c : Dev nD) (t : Fin cfg0.N) : (iblk m c 3 t : Vec Ideal S4x864x192 .bf16) = V m c main_arg2 := by
  funext x
  show V m c main_arg2 (((cfg0.win 3).blk t).view.emb x) = V m c main_arg2 x
  congr 1
  funext a; apply Fin.ext
  obtain ⟨h0, h1, h2⟩ := idx_p3 t
  match a with
  | ⟨0, _⟩ => show win0_3.index t (0 : Fin 3) * 4 + 1 * (x 0).val = (x 0).val; rw [h0]; omega
  | ⟨1, _⟩ => show win0_3.index t (1 : Fin 3) * 864 + 1 * (x 1).val = (x 1).val; rw [h1]; omega
  | ⟨2, _⟩ => show win0_3.index t (2 : Fin 3) * 192 + 1 * (x 2).val = (x 2).val; rw [h2]; omega
theorem par4 (c : Dev nD) (t : Fin cfg0.N) : (iblk m c 4 t : Vec Ideal S1x192 .f32) = V m c main_arg3 := by
  funext x
  show V m c main_arg3 (((cfg0.win 4).blk t).view.emb x) = V m c main_arg3 x
  congr 1
  funext a; apply Fin.ext
  obtain ⟨h0, h1⟩ := idx_p4 t
  match a with
  | ⟨0, _⟩ => show win0_4.index t (0 : Fin 2) * 1 + 1 * (x 0).val = (x 0).val; rw [h0]; omega
  | ⟨1, _⟩ => show win0_4.index t (1 : Fin 2) * 192 + 1 * (x 1).val = (x 1).val; rw [h1]; omega
theorem par5 (c : Dev nD) (t : Fin cfg0.N) : (iblk m c 5 t : Vec Ideal S192x120 .bf16) = V m c main_arg4 := by
  funext x
  show V m c main_arg4 (((cfg0.win 5).blk t).view.emb x) = V m c main_arg4 x
  congr 1
  funext a; apply Fin.ext
  obtain ⟨h0, h1⟩ := idx_p5 t
  match a with
  | ⟨0, _⟩ => show win0_5.index t (0 : Fin 2) * 192 + 1 * (x 0).val = (x 0).val; rw [h0]; omega
  | ⟨1, _⟩ => show win0_5.index t (1 : Fin 2) * 120 + 1 * (x 1).val = (x 1).val; rw [h1]; omega
theorem par6 (c : Dev nD) (t : Fin cfg0.N) : (iblk m c 6 t : Vec Ideal S1x120 .f32) = V m c main_arg5 := by
  funext x
  show V m c main_arg5 (((cfg0.win 6).blk t).view.emb x) = V m c main_arg5 x
  congr 1
  funext a; apply Fin.ext
  obtain ⟨h0, h1⟩ := idx_p6 t
  match a with
  | ⟨0, _⟩ => show win0_6.index t (0 : Fin 2) * 1 + 1 * (x 0).val = (x 0).val; rw [h0]; omega
  | ⟨1, _⟩ => show win0_6.index t (1 : Fin 2) * 120 + 1 * (x 1).val = (x 1).val; rw [h1]; omega
theorem par7 (c : Dev nD) (t : Fin cfg0.N) : (iblk m c 7 t : Vec Ideal S120x60 .bf16) = V m c main_arg6 := by
  funext x
  show V m c main_arg6 (((cfg0.win 7).blk t).view.emb x) = V m c main_arg6 x
  congr 1
  funext a; apply Fin.ext
  obtain ⟨h0, h1⟩ := idx_p7 t
  match a with
  | ⟨0, _⟩ => show win0_7.index t (0 : Fin 2) * 120 + 1 * (x 0).val = (x 0).val; rw [h0]; omega
  | ⟨1, _⟩ => show win0_7.index t (1 : Fin 2) * 60 + 1 * (x 1).val = (x 1).val; rw [h1]; omega
theorem par8 (c : Dev nD) (t : Fin cfg0.N) : (iblk m c 8 t : Vec Ideal S1x60 .f32) = V m c main_arg7 := by
  funext x
  show V m c main_arg7 (((cfg0.win 8).blk t).view.emb x) = V m c main_arg7 x
  congr 1
  funext a; apply Fin.ext
  obtain ⟨h0, h1⟩ := idx_p8 t
  match a with
  | ⟨0, _⟩ => show win0_8.index t (0 : Fin 2) * 1 + 1 * (x 0).val = (x 0).val; rw [h0]; omega
  | ⟨1, _⟩ => show win0_8.index t (1 : Fin 2) * 60 + 1 * (x 1).val = (x 1).val; rw [h1]; omega
theorem par9 (c : Dev nD) (t : Fin cfg0.N) : (iblk m c 9 t : Vec Ideal S60x128 .bf16) = V m c main_arg8 := by
  funext x
  show V m c main_arg8 (((cfg0.win 9).blk t).view.emb x) = V m c main_arg8 x
  congr 1
  funext a; apply Fin.ext
  obtain ⟨h0, h1⟩ := idx_p9 t
  match a with
  | ⟨0, _⟩ => show win0_9.index t (0 : Fin 2) * 60 + 1 * (x 0).val = (x 0).val; rw [h0]; omega
  | ⟨1, _⟩ => show win0_9.index t (1 : Fin 2) * 128 + 1 * (x 1).val = (x 1).val; rw [h1]; omega
theorem par10 (c : Dev nD) (t : Fin cfg0.N) : (iblk m c 10 t : Vec Ideal S1x128 .f32) = V m c main_arg9 := by
  funext x
  show V m c main_arg9 (((cfg0.win 10).blk t).view.emb x) = V m c main_arg9 x
  congr 1
  funext a; apply Fin.ext
  obtain ⟨h0, h1⟩ := idx_p10 t
  match a with
  | ⟨0, _⟩ => show win0_10.index t (0 : Fin 2) * 1 + 1 * (x 0).val = (x 0).val; rw [h0]; omega
  | ⟨1, _⟩ => show win0_10.index t (1 : Fin 2) * 128 + 1 * (x 1).val = (x 1).val; rw [h1]; omega

/-! ## The result array after the grid -/

/-- The result array: the network, row by row, of the flattened images as the grid finds them. -/
abbrev arr (c : Dev nD) : S8192x128.Idx → Elt Ideal .f32 :=
  logits (V m c main_v0) (V m c main_arg0) (V m c main_arg1) (V m c main_arg2) (V m c main_arg3) (V m c main_arg4)
    (V m c main_arg5) (V m c main_arg6) (V m c main_arg7) (V m c main_arg8) (V m c main_arg9)

/-- WHAT POINT `t` WRITES BACK is block `t` of `arr`: rows `512 t … 512 t + 511`. -/
theorem flushed_eq (c : Dev nD) (t : Fin cfg0.N) :
    (dats m 0 c).flushed 11 t = ((cfg0.win 11).blk t).view.read (Elt Ideal) (arr m c) := by
  show (cfg0.win 11).cut (grid0.coords t) ((dats m 0 c).after 11 t) = _
  rw [after0_11]
  funext j
  obtain ⟨p, q, rfl⟩ : ∃ (p : Fin 512) (q : Fin 128), j = ix2 p q := ⟨j 0, j 1, eq_ix2 j⟩
  have ht : t.val < 16 := by have := t.isLt; have hN : cfg0.N = 16 := N_0; omega
  have hlt : 512 * t.val + p.val < 8192 := by have := p.isLt; omega
  show out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 p q)
    = arr m c (((cfg0.win 11).blk t).view.emb (ix2 p q))
  have he : ((cfg0.win 11).blk t).view.emb (ix2 p q) = ix2 (⟨512 * t.val + p.val, hlt⟩ : Fin 8192) q := by
    funext a; apply Fin.ext
    obtain ⟨h0, h1⟩ := idx_out t
    match a with
    | ⟨0, _⟩ => show win0_11.index t (0 : Fin 2) * 512 + 1 * p.val = 512 * t.val + p.val; rw [h0]; omega
    | ⟨1, _⟩ => show win0_11.index t (1 : Fin 2) * 128 + 1 * q.val = q.val; rw [h1]; omega
  rw [he, par1 m c t, par2 m c t, par3 m c t, par4 m c t, par5 m c t, par6 m c t, par7 m c t, par8 m c t, par9 m c t, par10 m c t]
  refine (Block.block_row (iblk m c 0 t) (V m c main_arg0) (V m c main_arg1) (V m c main_arg2) (V m c main_arg3) (V m c main_arg4)
    (V m c main_arg5) (V m c main_arg6) (V m c main_arg7) (V m c main_arg8) (V m c main_arg9) p q).trans ?_
  have hrow : (fun k => (iblk m c 0 t : Vec Ideal S512x784 .f32) (ix2 p k))
      = fun k => (V m c main_v0 : S8192x784.Idx → Elt Ideal .f32) (ix2 (⟨512 * t.val + p.val, hlt⟩ : Fin 8192) k) :=
    funext fun k => imgs_row m c t p _ rfl k
  exact (congrArg (fun X : Fin 784 → EReal => rowOut X (V m c main_arg0) (V m c main_arg1) (V m c main_arg2) (V m c main_arg3)
      (V m c main_arg4) (V m c main_arg5) (V m c main_arg6) (V m c main_arg7) (V m c main_arg8) (V m c main_arg9) q) hrow).trans
    (logits_apply (V m c main_v0) (V m c main_arg0) (V m c main_arg1) (V m c main_arg2) (V m c main_arg3)
      (V m c main_arg4) (V m c main_arg5) (V m c main_arg6) (V m c main_arg7) (V m c main_arg8) (V m c main_arg9)
      ⟨512 * t.val + p.val, hlt⟩ q).symm

/-- An index of the result array is in point `t`'s block iff each coordinate is in the block's range on its axis. -/
theorem mem_blk (t : Fin cfg0.N) (i : S8192x128.Idx) :
    i ∈ ((cfg0.win 11).blk t).view.set ↔ ∀ a : Fin 2, win0_11.index t a * S512x128.size a ≤ (i a).val
      ∧ (i a).val < win0_11.index t a * S512x128.size a + S512x128.size a := by
  show i ∈ ((View.whole main_v1).slice (win0_11.rect t)).set ↔ _
  rw [View.set_slice_whole, Rect.mem_set_unit]
  exact Iff.rfl

/-- The blocks tile the result array: row `r` is in the block of point `r / 512`. -/
theorem cover (i : S8192x128.Idx) : ∃ t : Fin cfg0.N, (cfg0.win 11).flush t = true ∧ i ∈ ((cfg0.win 11).blk t).view.set := by
  have hi0 : (i 0).val < 8192 := (i 0).isLt
  have hi1 : (i 1).val < 128 := (i 1).isLt
  obtain ⟨t, ht⟩ : ∃ t : Fin cfg0.N, t.val = (i 0).val / 512 :=
    ⟨⟨(i 0).val / 512, by rw [show cfg0.N = 16 from N_0]; omega⟩, rfl⟩
  refine ⟨t, flush0_11 t, ?_⟩
  rw [mem_blk]
  obtain ⟨h0, h1⟩ := idx_out t
  intro a
  match a with
  | ⟨0, _⟩ =>
    show win0_11.index t (0 : Fin 2) * 512 ≤ (i 0).val ∧ (i 0).val < win0_11.index t (0 : Fin 2) * 512 + 512
    rw [h0, ht]; omega
  | ⟨1, _⟩ =>
    show win0_11.index t (1 : Fin 2) * 128 ≤ (i 1).val ∧ (i 1).val < win0_11.index t (1 : Fin 2) * 128 + 128
    rw [h1]; omega

/-- THE RESULT ARRAY after the grid is `arr`. -/
theorem final (c : Dev nD) : (dats m 0 c).arrAt 11 cfg0.N = arr m c :=
  (dats m 0 c).arrAt_eq_of_cover 11 (arr m c) (fun t _ => flushed_eq m c t) cover

/-! ## The lines of the program around the grid -/

/-- Before the grid the images are flattened to rows of 784. -/
theorem imgs_arr (c : Dev nD) : (V m c main_v0 : S8192x784.Idx → Elt Ideal .f32)
    = shapeCast S8192x784 (m ((c : Thread nD τ).loc main_arg10)) shapeCasts_S8192x1x28x28_S8192x784 := by
  show StableHlo.after hostOps0 (fun b => m (c, b)) (Proc.devRef .tc main_v0) = _
  after_results
  rfl

/-- After the grid the first ten columns of the result array are kept: the program's result is `RowNet.result` of its
    arguments. -/
theorem returned (c : Dev nD) : Pipeline.afterTail₀ cfgs (dats m) 0 (V0 m) [hostOps1] c main_v2
    = result (m ((c : Thread nD τ).loc main_arg10)) shapeCasts_S8192x1x28x28_S8192x784 slices_S8192x128_S8192x10_0_0
        (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  unfold Pipeline.afterTail₀
  show StableHlo.after hostOps1 _ (Proc.devRef .tc main_v2) = _
  after_results
  show extractStridedSlice S8192x10 ![0, 0]
      (Pipeline.withArrays spec0 c (V0 m c) (fun w => (dats m 0 c).arrAt w cfg0.N) (Proc.devRef .tc (Pipeline.arrRef spec0 11)))
      _ = _
  rw [Pipeline.withArrays_arr spec0 launch0.win.arr_inj c _ _ 11, final m c]
  unfold arr result
  rw [imgs_arr m c, V_main_arg0, V_main_arg1, V_main_arg2, V_main_arg3, V_main_arg4, V_main_arg5, V_main_arg6, V_main_arg7,
    V_main_arg8, V_main_arg9]

/-! ## The run -/

/-- Every weakly fair execution of the program ends with its result at `RowNet.result` of the arguments and the arguments
    unchanged. -/
theorem run : θ_run defs (onTc (τ := τ) (main (F := Ideal))) ⟨m, fun _ => 0, ρ⟩ (fun r => ∀ c : Dev nD,
      r.2.mem ((c.tc : Thread nD τ).loc main_v2)
        = result (m ((c : Thread nD τ).loc main_arg10)) shapeCasts_S8192x1x28x28_S8192x784 slices_S8192x128_S8192x10_0_0
            (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).2 main_v2 (Pipeline.mem_restRefs_of main_v2 (by decide) (by decide))).trans (returned m c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c))),
      ((h c).1 8).trans (((dats m 0 c).arrAt_in 8 rfl _).trans ((A_eq m c 8).trans (V_main_arg7 m c))),
      ((h c).1 9).trans (((dats m 0 c).arrAt_in 9 rfl _).trans ((A_eq m c 9).trans (V_main_arg8 m c))),
      ((h c).1 10).trans (((dats m 0 c).arrAt_in 10 rfl _).trans ((A_eq m c 10).trans (V_main_arg9 m c))),
      ((h c).2 main_arg10 (Pipeline.mem_restRefs_of main_arg10 (by decide) (by decide))).trans (W_main_arg10 m (dats m) c)⟩)
    (run_main m ρ)

end Cert.KernelIdeal.Arr

end
-- ==== Proof.ReferenceBlock.lean ====
/-
  What one grid point of the reference leaves in its output block: row `p` of the block is the network of row `p` of the
  point's block of images.

  The reference multiplies blocks of 128 images where the kernel multiplies 512; a row of a product mentions only that row
  of the left factor, and everything else acts entry by entry, so row `p`, entry `q` of what the body stores is again
  `RowNet.rowOut` of row `p` of the loaded images: the same function of one image, whatever the number of rows in a block.
-/
import proofs.«145349_g2000104654252751_pallasbulk_1105_2_alg».proof.Proof.Gen.ReferenceIdeal.Frame
import proofs.«145349_g2000104654252751_pallasbulk_1105_2_alg».proof.Proof.LibDenseRows
import proofs.«145349_g2000104654252751_pallasbulk_1105_2_alg».proof.Proof.RowNet
import Idealize.ShloMosaic.Lib.ValueLayout

noncomputable section

namespace Cert.ReferenceIdeal.Block

open Idealize.ShloMosaic Idealize.ShloMosaic.ValueIdx Idealize.ShloMosaic.DenseRows
open Cert.ReferenceIdeal Cert.ReferenceIdeal.Gen Cert.RowNet

theorem hz2 : (![0, 0] : Fin 2 → Nat) = fun _ => 0 := funext fun a => by fin_cases a <;> rfl

/-- Each product of the body is a plain rows-by-columns product. -/
theorem d1 : dot_S128x784_S784x864_S128x864_1_0_0_1_n_n = DotDims.plain 128 784 864 := rfl
theorem d2 : dot_S128x864_S864x192_S128x192_1_0_0_1_n_n = DotDims.plain 128 864 192 := rfl
theorem d3 : dot_S128x192_S192x120_S128x120_1_0_0_1_n_n = DotDims.plain 128 192 120 := rfl
theorem d4 : dot_S128x120_S120x60_S128x60_1_0_0_1_n_n = DotDims.plain 128 120 60 := rfl
theorem d5 : dot_S128x60_S60x128_S128x128_1_0_0_1_n_n = DotDims.plain 128 60 128 := rfl

/-- The first convolution-and-pooling stage, row `p`: the pooled stage of row `p` of the images under the four slabs. -/
theorem stage1_row (v0 : FVec Ideal S128x784 .bf16) (v2 v5 v9 v13 : FVec Ideal S1x784x864 .bf16) (v17 : FVec Ideal S1x864 .f32)
    (p : Fin 128) (c : Fin 864) :
    k0_pay2 (F := Ideal) v0 v2 v5 v9 v13 v17 (ix2 p c)
      = pooled (fun k => v0 (ix2 p k)) (fun k c => v2 (ix3 (0 : Fin 1) k c)) (fun k c => v5 (ix3 (0 : Fin 1) k c))
          (fun k c => v9 (ix3 (0 : Fin 1) k c)) (fun k c => v13 (ix3 (0 : Fin 1) k c)) (fun c => v17 (ix2 (0 : Fin 1) c)) c := by
  unfold k0_pay2 pooled RowNet.dot
  simp only [d1, maximumf_apply, addf_apply, truncf_apply, broadcast_apply, matmul_plain_zero_apply,
    broadcastTo_1b_ab_apply, shapeCast_1ab_ab_apply, shapeCast_self]
  rfl

/-- The larger of the second stage's products with its first two slabs, row `p`: two dense layers on row `p` of the first
    stage's output. -/
theorem conv2ab_row (v0 : FVec Ideal S128x784 .bf16) (v2 v5 v9 v13 : FVec Ideal S1x784x864 .bf16) (v17 : FVec Ideal S1x864 .f32)
    (v23 v26 : FVec Ideal S1x864x192 .bf16) (p : Fin 128) (c : Fin 192) :
    k0_pay3 (F := Ideal) v0 v2 v5 v9 v13 v17 v23 v26 (ix2 p c)
      = max (RowNet.dot (fun k => k0_pay2 (F := Ideal) v0 v2 v5 v9 v13 v17 (ix2 p k)) (fun k c => v23 (ix3 (0 : Fin 1) k c)) c)
          (RowNet.dot (fun k => k0_pay2 (F := Ideal) v0 v2 v5 v9 v13 v17 (ix2 p k)) (fun k c => v26 (ix3 (0 : Fin 1) k c)) c) := by
  unfold k0_pay3 RowNet.dot
  simp only [d2, maximumf_apply, matmul_plain_zero_apply, shapeCast_1ab_ab_apply]

/-- The rest of the second stage and the three dense layers, row `p`: from row `p` of the first stage's output `v22` and of
    the larger of the second stage's first two products `v29`. -/
theorem tail_row (v22 : FVec Ideal S128x864 .bf16) (v29 : FVec Ideal S128x192 .f32) (v30 v34 : FVec Ideal S1x864x192 .bf16)
    (v38 : FVec Ideal S1x192 .f32) (v44 : FVec Ideal S192x120 .bf16) (v46 : FVec Ideal S1x120 .f32)
    (v52 : FVec Ideal S120x60 .bf16) (v54 : FVec Ideal S1x60 .f32) (v60 : FVec Ideal S60x128 .bf16) (p : Fin 128) (c : Fin 128) :
    k0_pay4 (F := Ideal) v22 v29 v30 v34 v38 v44 v46 v52 v54 v60 (ix2 p c)
      = RowNet.dot
          (dense
            (dense
              (fun j => max (max (max (v29 (ix2 p j))
                    (RowNet.dot (fun k => v22 (ix2 p k)) (fun k c => v30 (ix3 (0 : Fin 1) k c)) j))
                    (RowNet.dot (fun k => v22 (ix2 p k)) (fun k c => v34 (ix3 (0 : Fin 1) k c)) j)
                  + v38 (ix2 (0 : Fin 1) j)) floor0)
              (fun k c => v44 (ix2 k c)) (fun c => v46 (ix2 (0 : Fin 1) c)))
            (fun k c => v52 (ix2 k c)) (fun c => v54 (ix2 (0 : Fin 1) c)))
          (fun k c => v60 (ix2 k c)) c := by
  unfold k0_pay4 dense RowNet.dot
  simp only [d2, d3, d4, d5, maximumf_apply, addf_apply, truncf_apply, broadcast_apply, matmul_plain_zero_apply,
    broadcastTo_1b_ab_apply, shapeCast_1ab_ab_apply]
  rfl

/-- The last bias, entry by entry. -/
theorem last_row (v61 : FVec Ideal S128x128 .f32) (v62 : FVec Ideal S1x128 .f32) (p : Fin 128) (c : Fin 128) :
    k0_pay1 (F := Ideal) v61 v62 (ix2 p c) = v61 (ix2 p c) + v62 (ix2 (0 : Fin 1) c) := by
  unfold k0_pay1
  simp only [addf_apply, broadcastTo_1b_ab_apply]

/-- WHAT THE BODY STORES, row `p`, entry `q`: the network of row `p` of the block of images it loaded, under the parameter
    arrays it loaded whole. -/
theorem block_row (x0 : Vec Ideal S128x784 .bf16) (x1 : Vec Ideal S4x784x864 .bf16) (x2 : Vec Ideal S1x864 .f32)
    (x3 : Vec Ideal S4x864x192 .bf16) (x4 : Vec Ideal S1x192 .f32) (x5 : Vec Ideal S192x120 .bf16) (x6 : Vec Ideal S1x120 .f32)
    (x7 : Vec Ideal S120x60 .bf16) (x8 : Vec Ideal S1x60 .f32) (x9 : Vec Ideal S60x128 .bf16) (x10 : Vec Ideal S1x128 .f32)
    (p : Fin 128) (q : Fin 128) :
    out0_11 (F := Ideal) x0 x1 x2 x3 x4 x5 x6 x7 x8 x9 x10 (ix2 p q)
      = rowOut (fun k => x0 (ix2 p k)) x1 x2 x3 x4 x5 x6 x7 x8 x9 x10 q := by
  unfold out0_11
  rw [View.canon_unit_zero hz2]
  simp only [View.ld_unit_zero (S := S128x784) hz2, View.ld_unit_zero (S := S1x864) hz2, View.ld_unit_zero (S := S1x192) hz2,
    View.ld_unit_zero (S := S192x120) hz2, View.ld_unit_zero (S := S1x120) hz2, View.ld_unit_zero (S := S120x60) hz2,
    View.ld_unit_zero (S := S1x60) hz2, View.ld_unit_zero (S := S60x128) hz2, View.ld_unit_zero (S := S1x128) hz2]
  rw [last_row, tail_row]
  simp only [conv2ab_row, stage1_row]
  rw [ld_slab_fun (Q := 4) x1 0 (by decide), ld_slab_fun (Q := 4) x1 1 (by decide), ld_slab_fun (Q := 4) x1 2 (by decide),
    ld_slab_fun (Q := 4) x1 3 (by decide), ld_slab_fun (Q := 4) x3 0 (by decide), ld_slab_fun (Q := 4) x3 1 (by decide),
    ld_slab_fun (Q := 4) x3 2 (by decide), ld_slab_fun (Q := 4) x3 3 (by decide)]
  unfold rowOut affine
  rfl

end Cert.ReferenceIdeal.Block

end
-- ==== Proof.ReferenceArray.lean ====
/-
  The reference's whole run, read as values.

  Its grid has 64 points; point `t` is given rows `128 t … 128 t + 127` of the flattened images and every parameter array
  whole, and writes rows `128 t … 128 t + 127` of the result array. A row of what a point stores is the network of the same
  row of its images (`Block.block_row`), so what point `t` writes back is block `t` of `RowNet.logits` of the flattened
  images, and the blocks tile the array. Before the grid the images are flattened and their float format narrowed, which
  on extended reals changes nothing; after it the first ten columns are kept: the program returns `RowNet.result` of its
  arguments, the same function the kernel's program returns.
-/
import proofs.«145349_g2000104654252751_pallasbulk_1105_2_alg».proof.Proof.ReferenceBlock
import Idealize.ShloMosaic.Lib.Pipeline.Value
import Idealize.ShloMosaic.Lib.StableHlo.Run
import Idealize.ShloMosaic.Lib.Tactic

noncomputable section

namespace Cert.ReferenceIdeal.Arr

open Idealize.ShloMosaic Idealize.ShloMosaic.TcCoe Idealize.SL.Sem Idealize.ShloMosaic.ValueIdx
open Idealize.ShloMosaic.Pipeline (Dat)
open Cert.ReferenceIdeal Cert.ReferenceIdeal.Gen Cert.RowNet

variable (m : (ℓ : Loc nD τ sig) → Buf (Elt Ideal) ℓ) (ρ : Dev nD → PrngReg)

/-! ## Where each window's block sits, decided over the grid -/

/-- The images' window and the result's window move one block of 128 rows per point. -/
theorem idx_imgs : ∀ t : Fin cfg0.N, win0_0.index t (0 : Fin 2) = t.val ∧ win0_0.index t (1 : Fin 2) = 0 :=
  (by decide +kernel : ∀ t : Fin grid0.N, _)
theorem idx_out : ∀ t : Fin cfg0.N, win0_11.index t (0 : Fin 2) = t.val ∧ win0_11.index t (1 : Fin 2) = 0 :=
  (by decide +kernel : ∀ t : Fin grid0.N, _)
/-- Every parameter's window stays at its one block, the whole array. -/
theorem idx_p1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx_p2 : ∀ t : Fin cfg0.N, win0_2.index t (0 : Fin 2) = 0 ∧ win0_2.index t (1 : Fin 2) = 0 :=
  (by decide +kernel : ∀ t : Fin grid0.N, _)
theorem idx_p3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx_p4 : ∀ t : Fin cfg0.N, win0_4.index t (0 : Fin 2) = 0 ∧ win0_4.index t (1 : Fin 2) = 0 :=
  (by decide +kernel : ∀ t : Fin grid0.N, _)
theorem idx_p5 : ∀ t : Fin cfg0.N, win0_5.index t (0 : Fin 2) = 0 ∧ win0_5.index t (1 : Fin 2) = 0 :=
  (by decide +kernel : ∀ t : Fin grid0.N, _)
theorem idx_p6 : ∀ t : Fin cfg0.N, win0_6.index t (0 : Fin 2) = 0 ∧ win0_6.index t (1 : Fin 2) = 0 :=
  (by decide +kernel : ∀ t : Fin grid0.N, _)
theorem idx_p7 : ∀ t : Fin cfg0.N, win0_7.index t (0 : Fin 2) = 0 ∧ win0_7.index t (1 : Fin 2) = 0 :=
  (by decide +kernel : ∀ t : Fin grid0.N, _)
theorem idx_p8 : ∀ t : Fin cfg0.N, win0_8.index t (0 : Fin 2) = 0 ∧ win0_8.index t (1 : Fin 2) = 0 :=
  (by decide +kernel : ∀ t : Fin grid0.N, _)
theorem idx_p9 : ∀ t : Fin cfg0.N, win0_9.index t (0 : Fin 2) = 0 ∧ win0_9.index t (1 : Fin 2) = 0 :=
  (by decide +kernel : ∀ t : Fin grid0.N, _)
theorem idx_p10 : ∀ t : Fin cfg0.N, win0_10.index t (0 : Fin 2) = 0 ∧ win0_10.index t (1 : Fin 2) = 0 :=
  (by decide +kernel : ∀ t : Fin grid0.N, _)

/-! ## Each input block as entries of its array -/

/-- Row `p` of the images' block at point `t` is row `128 t + p` of the flattened images. -/
theorem imgs_row (c : Dev nD) (t : Fin cfg0.N) (p : Fin 128) (r : Fin 8192) (hr : r.val = 128 * t.val + p.val) (k : Fin 784) :
    (iblk m c 0 t : Vec Ideal S128x784 .bf16) (ix2 p k) = (V m c main_v1 : S8192x784.Idx → Elt Ideal .bf16) (ix2 r k) := by
  show V m c main_v1 (((cfg0.win 0).blk t).view.emb (ix2 p k)) = V m c main_v1 (ix2 r k)
  congr 1
  funext a; apply Fin.ext
  obtain ⟨h0, h1⟩ := idx_imgs t
  match a with
  | ⟨0, _⟩ => show win0_0.index t (0 : Fin 2) * 128 + 1 * p.val = r.val; rw [h0, hr]; omega
  | ⟨1, _⟩ => show win0_0.index t (1 : Fin 2) * 784 + 1 * k.val = k.val; rw [h1]; omega

/-- Each parameter's block, at every point, is the parameter array. -/
theorem par1 (c : Dev nD) (t : Fin cfg0.N) : (iblk m c 1 t : Vec Ideal S4x784x864 .bf16) = V m c main_arg0 := by
  funext x
  show V m c main_arg0 (((cfg0.win 1).blk t).view.emb x) = V m c main_arg0 x
  congr 1
  funext a; apply Fin.ext
  obtain ⟨h0, h1, h2⟩ := idx_p1 t
  match a with
  | ⟨0, _⟩ => show win0_1.index t (0 : Fin 3) * 4 + 1 * (x 0).val = (x 0).val; rw [h0]; omega
  | ⟨1, _⟩ => show win0_1.index t (1 : Fin 3) * 784 + 1 * (x 1).val = (x 1).val; rw [h1]; omega
  | ⟨2, _⟩ => show win0_1.index t (2 : Fin 3) * 864 + 1 * (x 2).val = (x 2).val; rw [h2]; omega
theorem par2 (c : Dev nD) (t : Fin cfg0.N) : (iblk m c 2 t : Vec Ideal S1x864 .f32) = V m c main_arg1 := by
  funext x
  show V m c main_arg1 (((cfg0.win 2).blk t).view.emb x) = V m c main_arg1 x
  congr 1
  funext a; apply Fin.ext
  obtain ⟨h0, h1⟩ := idx_p2 t
  match a with
  | ⟨0, _⟩ => show win0_2.index t (0 : Fin 2) * 1 + 1 * (x 0).val = (x 0).val; rw [h0]; omega
  | ⟨1, _⟩ => show win0_2.index t (1 : Fin 2) * 864 + 1 * (x 1).val = (x 1).val; rw [h1]; omega
theorem par3 (c : Dev nD) (t : Fin cfg0.N) : (iblk m c 3 t : Vec Ideal S4x864x192 .bf16) = V m c main_arg2 := by
  funext x
  show V m c main_arg2 (((cfg0.win 3).blk t).view.emb x) = V m c main_arg2 x
  congr 1
  funext a; apply Fin.ext
  obtain ⟨h0, h1, h2⟩ := idx_p3 t
  match a with
  | ⟨0, _⟩ => show win0_3.index t (0 : Fin 3) * 4 + 1 * (x 0).val = (x 0).val; rw [h0]; omega
  | ⟨1, _⟩ => show win0_3.index t (1 : Fin 3) * 864 + 1 * (x 1).val = (x 1).val; rw [h1]; omega
  | ⟨2, _⟩ => show win0_3.index t (2 : Fin 3) * 192 + 1 * (x 2).val = (x 2).val; rw [h2]; omega
theorem par4 (c : Dev nD) (t : Fin cfg0.N) : (iblk m c 4 t : Vec Ideal S1x192 .f32) = V m c main_arg3 := by
  funext x
  show V m c main_arg3 (((cfg0.win 4).blk t).view.emb x) = V m c main_arg3 x
  congr 1
  funext a; apply Fin.ext
  obtain ⟨h0, h1⟩ := idx_p4 t
  match a with
  | ⟨0, _⟩ => show win0_4.index t (0 : Fin 2) * 1 + 1 * (x 0).val = (x 0).val; rw [h0]; omega
  | ⟨1, _⟩ => show win0_4.index t (1 : Fin 2) * 192 + 1 * (x 1).val = (x 1).val; rw [h1]; omega
theorem par5 (c : Dev nD) (t : Fin cfg0.N) : (iblk m c 5 t : Vec Ideal S192x120 .bf16) = V m c main_arg4 := by
  funext x
  show V m c main_arg4 (((cfg0.win 5).blk t).view.emb x) = V m c main_arg4 x
  congr 1
  funext a; apply Fin.ext
  obtain ⟨h0, h1⟩ := idx_p5 t
  match a with
  | ⟨0, _⟩ => show win0_5.index t (0 : Fin 2) * 192 + 1 * (x 0).val = (x 0).val; rw [h0]; omega
  | ⟨1, _⟩ => show win0_5.index t (1 : Fin 2) * 120 + 1 * (x 1).val = (x 1).val; rw [h1]; omega
theorem par6 (c : Dev nD) (t : Fin cfg0.N) : (iblk m c 6 t : Vec Ideal S1x120 .f32) = V m c main_arg5 := by
  funext x
  show V m c main_arg5 (((cfg0.win 6).blk t).view.emb x) = V m c main_arg5 x
  congr 1
  funext a; apply Fin.ext
  obtain ⟨h0, h1⟩ := idx_p6 t
  match a with
  | ⟨0, _⟩ => show win0_6.index t (0 : Fin 2) * 1 + 1 * (x 0).val = (x 0).val; rw [h0]; omega
  | ⟨1, _⟩ => show win0_6.index t (1 : Fin 2) * 120 + 1 * (x 1).val = (x 1).val; rw [h1]; omega
theorem par7 (c : Dev nD) (t : Fin cfg0.N) : (iblk m c 7 t : Vec Ideal S120x60 .bf16) = V m c main_arg6 := by
  funext x
  show V m c main_arg6 (((cfg0.win 7).blk t).view.emb x) = V m c main_arg6 x
  congr 1
  funext a; apply Fin.ext
  obtain ⟨h0, h1⟩ := idx_p7 t
  match a with
  | ⟨0, _⟩ => show win0_7.index t (0 : Fin 2) * 120 + 1 * (x 0).val = (x 0).val; rw [h0]; omega
  | ⟨1, _⟩ => show win0_7.index t (1 : Fin 2) * 60 + 1 * (x 1).val = (x 1).val; rw [h1]; omega
theorem par8 (c : Dev nD) (t : Fin cfg0.N) : (iblk m c 8 t : Vec Ideal S1x60 .f32) = V m c main_arg7 := by
  funext x
  show V m c main_arg7 (((cfg0.win 8).blk t).view.emb x) = V m c main_arg7 x
  congr 1
  funext a; apply Fin.ext
  obtain ⟨h0, h1⟩ := idx_p8 t
  match a with
  | ⟨0, _⟩ => show win0_8.index t (0 : Fin 2) * 1 + 1 * (x 0).val = (x 0).val; rw [h0]; omega
  | ⟨1, _⟩ => show win0_8.index t (1 : Fin 2) * 60 + 1 * (x 1).val = (x 1).val; rw [h1]; omega
theorem par9 (c : Dev nD) (t : Fin cfg0.N) : (iblk m c 9 t : Vec Ideal S60x128 .bf16) = V m c main_arg8 := by
  funext x
  show V m c main_arg8 (((cfg0.win 9).blk t).view.emb x) = V m c main_arg8 x
  congr 1
  funext a; apply Fin.ext
  obtain ⟨h0, h1⟩ := idx_p9 t
  match a with
  | ⟨0, _⟩ => show win0_9.index t (0 : Fin 2) * 60 + 1 * (x 0).val = (x 0).val; rw [h0]; omega
  | ⟨1, _⟩ => show win0_9.index t (1 : Fin 2) * 128 + 1 * (x 1).val = (x 1).val; rw [h1]; omega
theorem par10 (c : Dev nD) (t : Fin cfg0.N) : (iblk m c 10 t : Vec Ideal S1x128 .f32) = V m c main_arg9 := by
  funext x
  show V m c main_arg9 (((cfg0.win 10).blk t).view.emb x) = V m c main_arg9 x
  congr 1
  funext a; apply Fin.ext
  obtain ⟨h0, h1⟩ := idx_p10 t
  match a with
  | ⟨0, _⟩ => show win0_10.index t (0 : Fin 2) * 1 + 1 * (x 0).val = (x 0).val; rw [h0]; omega
  | ⟨1, _⟩ => show win0_10.index t (1 : Fin 2) * 128 + 1 * (x 1).val = (x 1).val; rw [h1]; omega

/-! ## The result array after the grid -/

/-- The result array: the network, row by row, of the flattened images as the grid finds them. -/
abbrev arr (c : Dev nD) : S8192x128.Idx → Elt Ideal .f32 :=
  logits (V m c main_v1) (V m c main_arg0) (V m c main_arg1) (V m c main_arg2) (V m c main_arg3) (V m c main_arg4)
    (V m c main_arg5) (V m c main_arg6) (V m c main_arg7) (V m c main_arg8) (V m c main_arg9)

/-- WHAT POINT `t` WRITES BACK is block `t` of `arr`: rows `128 t … 128 t + 127`. -/
theorem flushed_eq (c : Dev nD) (t : Fin cfg0.N) :
    (dats m 0 c).flushed 11 t = ((cfg0.win 11).blk t).view.read (Elt Ideal) (arr m c) := by
  show (cfg0.win 11).cut (grid0.coords t) ((dats m 0 c).after 11 t) = _
  rw [after0_11]
  funext j
  obtain ⟨p, q, rfl⟩ : ∃ (p : Fin 128) (q : Fin 128), j = ix2 p q := ⟨j 0, j 1, eq_ix2 j⟩
  have ht : t.val < 64 := by have := t.isLt; have hN : cfg0.N = 64 := N_0; omega
  have hlt : 128 * t.val + p.val < 8192 := by have := p.isLt; omega
  show out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 p q)
    = arr m c (((cfg0.win 11).blk t).view.emb (ix2 p q))
  have he : ((cfg0.win 11).blk t).view.emb (ix2 p q) = ix2 (⟨128 * t.val + p.val, hlt⟩ : Fin 8192) q := by
    funext a; apply Fin.ext
    obtain ⟨h0, h1⟩ := idx_out t
    match a with
    | ⟨0, _⟩ => show win0_11.index t (0 : Fin 2) * 128 + 1 * p.val = 128 * t.val + p.val; rw [h0]; omega
    | ⟨1, _⟩ => show win0_11.index t (1 : Fin 2) * 128 + 1 * q.val = q.val; rw [h1]; omega
  rw [he, par1 m c t, par2 m c t, par3 m c t, par4 m c t, par5 m c t, par6 m c t, par7 m c t, par8 m c t, par9 m c t, par10 m c t]
  refine (Block.block_row (iblk m c 0 t) (V m c main_arg0) (V m c main_arg1) (V m c main_arg2) (V m c main_arg3) (V m c main_arg4)
    (V m c main_arg5) (V m c main_arg6) (V m c main_arg7) (V m c main_arg8) (V m c main_arg9) p q).trans ?_
  have hrow : (fun k => (iblk m c 0 t : Vec Ideal S128x784 .bf16) (ix2 p k))
      = fun k => (V m c main_v1 : S8192x784.Idx → Elt Ideal .bf16) (ix2 (⟨128 * t.val + p.val, hlt⟩ : Fin 8192) k) :=
    funext fun k => imgs_row m c t p _ rfl k
  exact (congrArg (fun X : Fin 784 → EReal => rowOut X (V m c main_arg0) (V m c main_arg1) (V m c main_arg2) (V m c main_arg3)
      (V m c main_arg4) (V m c main_arg5) (V m c main_arg6) (V m c main_arg7) (V m c main_arg8) (V m c main_arg9) q) hrow).trans
    (logits_apply (V m c main_v1) (V m c main_arg0) (V m c main_arg1) (V m c main_arg2) (V m c main_arg3)
      (V m c main_arg4) (V m c main_arg5) (V m c main_arg6) (V m c main_arg7) (V m c main_arg8) (V m c main_arg9)
      ⟨128 * t.val + p.val, hlt⟩ q).symm

/-- An index of the result array is in point `t`'s block iff each coordinate is in the block's range on its axis. -/
theorem mem_blk (t : Fin cfg0.N) (i : S8192x128.Idx) :
    i ∈ ((cfg0.win 11).blk t).view.set ↔ ∀ a : Fin 2, win0_11.index t a * S128x128.size a ≤ (i a).val
      ∧ (i a).val < win0_11.index t a * S128x128.size a + S128x128.size a := by
  show i ∈ ((View.whole main_v2).slice (win0_11.rect t)).set ↔ _
  rw [View.set_slice_whole, Rect.mem_set_unit]
  exact Iff.rfl

/-- The blocks tile the result array: row `r` is in the block of point `r / 128`. -/
theorem cover (i : S8192x128.Idx) : ∃ t : Fin cfg0.N, (cfg0.win 11).flush t = true ∧ i ∈ ((cfg0.win 11).blk t).view.set := by
  have hi0 : (i 0).val < 8192 := (i 0).isLt
  have hi1 : (i 1).val < 128 := (i 1).isLt
  obtain ⟨t, ht⟩ : ∃ t : Fin cfg0.N, t.val = (i 0).val / 128 :=
    ⟨⟨(i 0).val / 128, by rw [show cfg0.N = 64 from N_0]; omega⟩, rfl⟩
  refine ⟨t, flush0_11 t, ?_⟩
  rw [mem_blk]
  obtain ⟨h0, h1⟩ := idx_out t
  intro a
  match a with
  | ⟨0, _⟩ =>
    show win0_11.index t (0 : Fin 2) * 128 ≤ (i 0).val ∧ (i 0).val < win0_11.index t (0 : Fin 2) * 128 + 128
    rw [h0, ht]; omega
  | ⟨1, _⟩ =>
    show win0_11.index t (1 : Fin 2) * 128 ≤ (i 1).val ∧ (i 1).val < win0_11.index t (1 : Fin 2) * 128 + 128
    rw [h1]; omega

/-- THE RESULT ARRAY after the grid is `arr`. -/
theorem final (c : Dev nD) : (dats m 0 c).arrAt 11 cfg0.N = arr m c :=
  (dats m 0 c).arrAt_eq_of_cover 11 (arr m c) (fun t _ => flushed_eq m c t) cover

/-! ## The lines of the program around the grid -/

/-- Before the grid the images are flattened to rows of 784 and their float format narrowed. -/
theorem imgs_arr (c : Dev nD) : (V m c main_v1 : S8192x784.Idx → Elt Ideal .bf16)
    = truncf (F := Ideal) .bf16
        (shapeCast S8192x784 (m ((c : Thread nD τ).loc main_arg10)) shapeCasts_S8192x1x28x28_S8192x784) bitsLt_bf16_f32 := by
  show StableHlo.after hostOps0 (fun b => m (c, b)) (Proc.devRef .tc main_v1) = _
  after_results
  rfl

/-- After the grid the first ten columns of the result array are kept: the program's result is `RowNet.result` of its
    arguments (narrowing the float format is the identity on extended reals). -/
theorem returned (c : Dev nD) : Pipeline.afterTail₀ cfgs (dats m) 0 (V0 m) [hostOps1] c main_v3
    = result (m ((c : Thread nD τ).loc main_arg10)) shapeCasts_S8192x1x28x28_S8192x784 slices_S8192x128_S8192x10_0_0
        (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  unfold Pipeline.afterTail₀
  show StableHlo.after hostOps1 _ (Proc.devRef .tc main_v3) = _
  after_results
  show extractStridedSlice S8192x10 ![0, 0]
      (Pipeline.withArrays spec0 c (V0 m c) (fun w => (dats m 0 c).arrAt w cfg0.N) (Proc.devRef .tc (Pipeline.arrRef spec0 11)))
      _ = _
  rw [Pipeline.withArrays_arr spec0 launch0.win.arr_inj c _ _ 11, final m c]
  unfold arr result
  rw [imgs_arr m c, V_main_arg0, V_main_arg1, V_main_arg2, V_main_arg3, V_main_arg4, V_main_arg5, V_main_arg6, V_main_arg7,
    V_main_arg8, V_main_arg9]
  rfl

/-! ## The run -/

/-- Every weakly fair execution of the program ends with its result at `RowNet.result` of the arguments and the arguments
    unchanged. -/
theorem run : θ_run defs (onTc (τ := τ) (main (F := Ideal))) ⟨m, fun _ => 0, ρ⟩ (fun r => ∀ c : Dev nD,
      r.2.mem ((c.tc : Thread nD τ).loc main_v3)
        = result (m ((c : Thread nD τ).loc main_arg10)) shapeCasts_S8192x1x28x28_S8192x784 slices_S8192x128_S8192x10_0_0
            (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).2 main_v3 (Pipeline.mem_restRefs_of main_v3 (by decide) (by decide))).trans (returned m c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c))),
      ((h c).1 8).trans (((dats m 0 c).arrAt_in 8 rfl _).trans ((A_eq m c 8).trans (V_main_arg7 m c))),
      ((h c).1 9).trans (((dats m 0 c).arrAt_in 9 rfl _).trans ((A_eq m c 9).trans (V_main_arg8 m c))),
      ((h c).1 10).trans (((dats m 0 c).arrAt_in 10 rfl _).trans ((A_eq m c 10).trans (V_main_arg9 m c))),
      ((h c).2 main_arg10 (Pipeline.mem_restRefs_of main_arg10 (by decide) (by decide))).trans (W_main_arg10 m (dats m) c)⟩)
    (run_main m ρ)

end Cert.ReferenceIdeal.Arr

end
-- ==== Proof.lean ====
/-
  A five-layer network on 8192 images, computed 512 images at a time against the same network computed 128 images at a
  time: equal over the extended reals.

  Both programs flatten each image to a row of 784 numbers, run one grid whose every point pushes a block of rows through
  the same layers — two convolution-and-pooling stages, each four dense layers maximised entry by entry, biased and floored
  at zero; two dense layers with bias and floor; a last dense layer with bias — and keep the first ten of each row's 128
  results. They differ in the number of rows a point takes (512 over 16 points against 128 over 64) and in where the images'
  float format is narrowed (inside the body against before the grid); on extended reals a change of format is the identity.
  A row of a matrix product reads only that row of the left factor, and maxima, biases and floors act entry by entry, so each
  row of a point's result is one function, `RowNet.rowOut`, of the same row of its images, whatever the block's height
  (`KernelIdeal.Block.block_row`, `ReferenceIdeal.Block.block_row`). Each point therefore writes back its block of ONE array,
  `RowNet.logits` of the flattened images; the blocks tile it; and both programs return `RowNet.result` of their arguments
  (`KernelIdeal.Arr.run`, `ReferenceIdeal.Arr.run`). No law of arithmetic is used that could fail at an infinity, so the
  finiteness of the inputs is never opened. The three frames are the generated ones; the idealization rewrote nothing.
-/
import proofs.«145349_g2000104654252751_pallasbulk_1105_2_alg».proof.Defs
import proofs.«145349_g2000104654252751_pallasbulk_1105_2_alg».proof.Proof.Gen.Kernel
import proofs.«145349_g2000104654252751_pallasbulk_1105_2_alg».proof.Proof.Gen.Kernel.Skeleton
import proofs.«145349_g2000104654252751_pallasbulk_1105_2_alg».proof.Proof.Gen.Kernel.Launch
import proofs.«145349_g2000104654252751_pallasbulk_1105_2_alg».proof.Proof.Gen.Kernel.Points
import proofs.«145349_g2000104654252751_pallasbulk_1105_2_alg».proof.Proof.Gen.Kernel.Frame
import proofs.«145349_g2000104654252751_pallasbulk_1105_2_alg».proof.Proof.Gen.KernelIdeal
import proofs.«145349_g2000104654252751_pallasbulk_1105_2_alg».proof.Proof.Gen.KernelIdeal.Skeleton
import proofs.«145349_g2000104654252751_pallasbulk_1105_2_alg».proof.Proof.Gen.KernelIdeal.Launch
import proofs.«145349_g2000104654252751_pallasbulk_1105_2_alg».proof.Proof.Gen.KernelIdeal.Points
import proofs.«145349_g2000104654252751_pallasbulk_1105_2_alg».proof.Proof.Gen.KernelIdeal.Frame
import proofs.«145349_g2000104654252751_pallasbulk_1105_2_alg».proof.Proof.Gen.ReferenceIdeal
import proofs.«145349_g2000104654252751_pallasbulk_1105_2_alg».proof.Proof.Gen.ReferenceIdeal.Skeleton
import proofs.«145349_g2000104654252751_pallasbulk_1105_2_alg».proof.Proof.Gen.ReferenceIdeal.Launch
import proofs.«145349_g2000104654252751_pallasbulk_1105_2_alg».proof.Proof.Gen.ReferenceIdeal.Points
import proofs.«145349_g2000104654252751_pallasbulk_1105_2_alg».proof.Proof.Gen.ReferenceIdeal.Frame
import proofs.«145349_g2000104654252751_pallasbulk_1105_2_alg».proof.Proof.Gen.Pre_finite_inputs
import proofs.«145349_g2000104654252751_pallasbulk_1105_2_alg».proof.Proof.KernelArray
import proofs.«145349_g2000104654252751_pallasbulk_1105_2_alg».proof.Proof.ReferenceArray
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- And the idealized reference, itself one grid between host lines. -/
theorem frame_ri : Cert.frame_ReferenceIdeal := fun m ρ _ => Cert.ReferenceIdeal.Gen.frame m ρ

/-- The idealization rewrote no operation: nothing to restate. -/
theorem preserves : Cert.preserves_Kernel_KernelIdeal := trivial

/-- From memories that agree on the arguments both programs end at `RowNet.result` of those arguments. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.Arr.run m' ρ')
  obtain ⟨e0, e1, e2, e3, e4, e5, e6, e7, e8, e9, e10⟩ := hagree c
  rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
